-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S16x256x32000 : Shape := ⟨3, ![16, 256, 32000]⟩
abbrev S256 : Shape := ⟨1, ![256]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S16x256x32000 : S_.BroadcastsInDim S16x256x32000 (![] : Fin 0 → Fin S16x256x32000.rank)
  reducesTo_S16x256x32000_S_d0_1_2 : S16x256x32000.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256 .f32) (main_arg1 : FVec F S16x256x32000 .f32) (main_arg2 : IVec S256 32) : IVec S_ 1 :=
  let main_v0 : FVec F S16x256 .f32 := Host.absf main_arg0
  let main_cst : FVec F S_ .f32 := constant S_ .f32 0x7F800000#32
  let main_v1 : FVec F S16x256 .f32 := broadcastInDim S16x256 ![] bcast_S_S16x256 main_cst
  let main_v2 : IVec S16x256 1 := cmpf .olt main_v0 main_v1
  let main_c : IVec S_ 1 := constantI S_ 1 1#1
  let main_v3 : IVec S_ 1 := (fun x v => Host.reduce IntOp.andi x v reducesTo_S16x256_S_d0_1 h_S_) main_v2 main_c
  let main_v4 : FVec F S16x256x32000 .f32 := Host.absf main_arg1
  let main_cst_0 : FVec F S_ .f32 := constant S_ .f32 0x7F800000#32
  let main_v5 : FVec F S16x256x32000 .f32 := broadcastInDim S16x256x32000 ![] bcast_S_S16x256x32000 main_cst_0
  let main_v6 : IVec S16x256x32000 1 := cmpf .olt main_v4 main_v5
  let main_c_1 : IVec S_ 1 := constantI S_ 1 1#1
  let main_v7 : IVec S_ 1 := (fun x v => Host.reduce IntOp.andi x v reducesTo_S16x256x32000_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 32000#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  main_v15
-- ==== Kernel.lean ====
abbrev S16x256 : Shape := ⟨2, ![16, 256]⟩
abbrev S16x256x32000 : Shape := ⟨3, ![16, 256, 32000]⟩
abbrev S256 : Shape := ⟨1, ![256]⟩
abbrev S4096x1 : Shape := ⟨2, ![4096, 1]⟩
abbrev S4096x32000 : Shape := ⟨2, ![4096, 32000]⟩
abbrev S1x256 : Shape := ⟨2, ![1, 256]⟩
abbrev S512x1 : Shape := ⟨2, ![512, 1]⟩
abbrev S512x3200 : Shape := ⟨2, ![512, 3200]⟩
abbrev S1x3200 : Shape := ⟨2, ![1, 3200]⟩
abbrev S512 : Shape := ⟨1, ![512]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S16x256, .f32⟩
  | .hbm, ⟨1, _⟩ => ⟨S16x256x32000, .f32⟩
  | .hbm, ⟨2, _⟩ => ⟨S256, .i32⟩
  | .hbm, ⟨3, _⟩ => ⟨S4096x1, .f32⟩
  | .hbm, ⟨4, _⟩ => ⟨S4096x32000, .f32⟩
  | .hbm, ⟨5, _⟩ => ⟨S1x256, .i32⟩
  | .hbm, ⟨6, _⟩ => ⟨S16x256, .i32⟩
  | .hbm, ⟨7, _⟩ => ⟨S4096x1, .i32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S512x1, .i32⟩
  | .local _ .vmem, ⟨3, _⟩ => ⟨S512x1, .i32⟩
  | .local _ .vmem, ⟨4, _⟩ => ⟨S512x3200, .f32⟩
  | .local _ .vmem, ⟨5, _⟩ => ⟨S512x3200, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v43 : BitVec 1 := Scalar.cmpi .eq arg1 c9_i32
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x256_S4096x1 : S16x256.ShapeCasts S4096x1
  shapeCasts_S16x256x32000_S4096x32000 : S16x256x32000.ShapeCasts S4096x32000
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  shapeCasts_S512x3200_S512x3200 : S512x3200.ShapeCasts S512x3200
  iota_S1x3200_d1_w32 : S1x3200.Iotas .tc 32 [1]
  broadcasts_S1x3200_S512x3200 : S1x3200.Broadcasts S512x3200
  broadcasts_S512x1_S512x3200 : S512x1.Broadcasts S512x3200
  reduces_S512x3200_S512 : S512x3200.Reduces [1] S512
  shapeCasts_S512_S512x1 : S512.ShapeCasts S512x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3200.size a ≤ S4096x32000.size a
  hwx0_2 : ∀ i : grid0.Coords, EltTy.bits .f32 = 32 ∨ (Rect.block (s := S4096x32000) S512x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x256 : Shape := ⟨2, ![16, 256]⟩
abbrev S16x256x32000 : Shape := ⟨3, ![16, 256, 32000]⟩
abbrev S256 : Shape := ⟨1, ![256]⟩
abbrev S_ : Shape := ⟨0, ![]⟩
abbrev S16x256x1 : Shape := ⟨3, ![16, 256, 1]⟩
abbrev S1x256x1 : Shape := ⟨3, ![1, 256, 1]⟩
abbrev S16x256x1x1 : Shape := ⟨4, ![16, 256, 1, 1]⟩
abbrev S1 : Shape := ⟨1, ![1]⟩
abbrev S1x1x1x1 : Shape := ⟨4, ![1, 1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256x32000, .f32⟩
  | .hbm, ⟨2, _⟩ => ⟨S256, .i32⟩
  | .hbm, ⟨3, _⟩ => ⟨S_, .f32⟩
  | .hbm, ⟨4, _⟩ => ⟨S16x256, .f32⟩
  | .hbm, ⟨5, _⟩ => ⟨S_, .f32⟩
  | .hbm, ⟨6, _⟩ => ⟨S16x256, .f32⟩
  | .hbm, ⟨7, _⟩ => ⟨S16x256, .f32⟩
  | .hbm, ⟨8, _⟩ => ⟨S16x256x1, .f32⟩
  | .hbm, ⟨9, _⟩ => ⟨S16x256x32000, .f32⟩
  | .hbm, ⟨10, _⟩ => ⟨S16x256x32000, .f32⟩
  | .hbm, ⟨11, _⟩ => ⟨S16x256x32000, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S16x256x1, .f32⟩
  | .hbm, ⟨16, _⟩ => ⟨S16x256x32000, .f32⟩
  | .hbm, ⟨17, _⟩ => ⟨S16x256x32000, .f32⟩
  | .hbm, ⟨18, _⟩ => ⟨S1x256x1, .i32⟩
  | .hbm, ⟨19, _⟩ => ⟨S16x256x1, .i32⟩
  | .hbm, ⟨20, _⟩ => ⟨S_, .i32⟩
  | .hbm, ⟨21, _⟩ => ⟨S16x256x1, .i32⟩
  | .hbm, ⟨22, _⟩ => ⟨S16x256x1, .i1⟩
  | .hbm, ⟨23, _⟩ => ⟨S_, .i32⟩
  | .hbm, ⟨24, _⟩ => ⟨S16x256x1, .i32⟩
  | .hbm, ⟨25, _⟩ => ⟨S16x256x1, .i32⟩
  | .hbm, ⟨26, _⟩ => ⟨S16x256x1, .i32⟩
  | .hbm, ⟨27, _⟩ => ⟨S16x256x1x1, .i32⟩
  | .hbm, ⟨28, _⟩ => ⟨S1, .i32⟩
  | .hbm, ⟨29, _⟩ => ⟨S_, .i32⟩
  | .hbm, ⟨30, _⟩ => ⟨S16x256x1x1, .i32⟩
  | .hbm, ⟨31, _⟩ => ⟨S16x256x1x1, .i1⟩
  | .hbm, ⟨32, _⟩ => ⟨S1x1x1x1, .i32⟩
  | .hbm, ⟨33, _⟩ => ⟨S16x256x1x1, .i32⟩
  | .hbm, ⟨34, _⟩ => ⟨S16x256x1x1, .i1⟩
  | .hbm, ⟨35, _⟩ => ⟨S16x256x1x1, .i1⟩
  | .hbm, ⟨36, _⟩ => ⟨S_, .i1⟩
  | .hbm, ⟨37, _⟩ => ⟨S16x256x1, .i1⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S16x256, .f32⟩
  | .hbm, ⟨43, _⟩ => ⟨S16x256, .f32⟩
  | .hbm, ⟨44, _⟩ => ⟨S16x256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_cst_0 : Ref sig .tc := ⟨.hbm, 47, rfl⟩
abbrev main_v8 : Ref sig .tc := ⟨.hbm, 48, rfl⟩

abbrev nD : Nat := 1
abbrev τ : Topo := Topo.v7x

variable {F : FTy → Type} [FloatOps F]

class Facts₀ : Prop where
  reducesTo_S16x256x32000_S16x256_d2 : S16x256x32000.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x32000_0_1_2 : S16x256x1.BroadcastsInDim S16x256x32000 (![0, 1, 2] : Fin 3 → Fin S16x256x32000.rank)
  bcast_S256_S1x256x1_1 : S256.BroadcastsInDim S1x256x1 (![1] : Fin 1 → Fin S1x256x1.rank)
  bcast_S1x256x1_S16x256x1_0_1_2 : S1x256x1.BroadcastsInDim S16x256x1 (![0, 1, 2] : Fin 3 → Fin S16x256x1.rank)
  bcast_S_S16x256x1 : S_.BroadcastsInDim S16x256x1 (![] : Fin 0 → Fin S16x256x1.rank)
  shapeCasts_S16x256x1_S16x256x1x1 : S16x256x1.ShapeCasts S16x256x1x1
  bcast_S_S16x256x1x1 : S_.BroadcastsInDim S16x256x1x1 (![] : Fin 0 → Fin S16x256x1x1.rank)
  bcast_S1_S1x1x1x1_3 : S1.BroadcastsInDim S1x1x1x1 (![3] : Fin 1 → Fin S1x1x1x1.rank)
  bcast_S1x1x1x1_S16x256x1x1_0_1_2_3 : S1x1x1x1.BroadcastsInDim S16x256x1x1 (![0, 1, 2, 3] : Fin 4 → Fin S16x256x1x1.rank)
  reducesTo_S16x256x1x1_S16x256x1_d3 : S16x256x1x1.ReducesTo [3] S16x256x1
  shapeCasts_S16x256x1_S16x256 : S16x256x1.ShapeCasts S16x256
  reducesTo_S16x256_S_d0_1 : S16x256.ReducesTo [0, 1] S_
  gather_S16x256x32000_S16x256x1x1_S16x256x1_n_2_01_01_2_3_111_wf : GatherDims.WF S16x256x32000 S16x256x1x1 S16x256x1 [] [2] [0, 1] [2] [0, 1] 3 ![1, 1, 1]

variable [Facts₀]

def gather_S16x256x32000_S16x256x1x1_S16x256x1_n_2_01_01_2_3_111 : GatherDims S16x256x32000 S16x256x1x1 S16x256x1 where
  offsetDims := []
  collapsedSliceDims := [2]
  operandBatchingDims := [0, 1]
  startIndicesBatchingDims := [0, 1]
  startIndexMap := [2]
  indexVectorDim := 3
  sliceSizes := ![1, 1, 1]
  wf := gather_S16x256x32000_S16x256x1x1_S16x256x1_n_2_01_01_2_3_111_wf

class Facts : Prop extends Facts₀ where

variable [Facts]
-- ==== Proof.Tile.lean ====
/-
  What one grid point leaves behind, as values. The kernel keeps three columns per row tile across the ten vocabulary
  tiles — the running maximum, the running rescaled sum of exponentials and the running masked sum that picks the
  label's logit — and at the last vocabulary tile writes `p · ((max + log sum) − picked)`. At the first vocabulary tile
  the columns start from the finite seed, 0 and 0; at the others from what the tile before left.
-/
import proofs.«428657_j34385508171853_3_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The new running maximum from the tile `x` and the old maximum `mx`. -/
abbrev newMax (x : Vec F S512x3200 .f32) (mx : Vec F S512x1 .f32) : Vec F S512x1 .f32 := k0_pay2 (k0_pay9 x mx)
/-- The new running sum: the old one rescaled to the new maximum plus the tile's shifted exponentials. -/
abbrev newSum (x : Vec F S512x3200 .f32) (mx sm : Vec F S512x1 .f32) : Vec F S512x1 .f32 := k0_pay1 (k0_pay10 x mx sm)
/-- The new masked sum: the old one plus the tile's entries at the label's position. -/
abbrev newPick (i : grid0.Coords) (x : Vec F S512x3200 .f32) (lab : Vec F S512x1 .i32) (pk : Vec F S512x1 .f32) : Vec F S512x1 .f32 :=
  k0_pay8 i x lab pk

/-! ## A middle vocabulary tile: the three columns move on from what the tile before left -/

theorem mid_max (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x1 .f32) (x1 : Vec F S512x1 .i32) (x2 : Vec F S512x3200 .f32) (xs0 xs1 xs2 : Vec F S512x1 .f32) :
    sout0_B_0 c i arg2 harg2 arg3 harg3 arg4 harg4 arg5 harg5 arg6 harg6 arg7 harg7 arg8 harg8 hc0 hc1 x0 x1 x2 xs0 xs1 xs2 = newMax x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem mid_sum (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x1 .f32) (x1 : Vec F S512x1 .i32) (x2 : Vec F S512x3200 .f32) (xs0 xs1 xs2 : Vec F S512x1 .f32) :
    sout0_B_1 c i arg2 harg2 arg3 harg3 arg4 harg4 arg5 harg5 arg6 harg6 arg7 harg7 arg8 harg8 hc0 hc1 x0 x1 x2 xs0 xs1 xs2 = newSum x2 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem mid_pick (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i)
    (x0 : Vec F S512x1 .f32) (x1 : Vec F S512x1 .i32) (x2 : Vec F S512x3200 .f32) (xs0 xs1 xs2 : Vec F S512x1 .f32) :
    sout0_B_2 c i arg2 harg2 arg3 harg3 arg4 harg4 arg5 harg5 arg6 harg6 arg7 harg7 arg8 harg8 hc0 hc1 x0 x1 x2 xs0 xs1 xs2 = newPick i x2 x1 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

/-! ## The last vocabulary tile: the same step, and the row tile's weighted cross entropies are written -/

theorem last_max (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x1 .f32) (x1 : Vec F S512x1 .i32) (x2 : Vec F S512x3200 .f32) (xs0 xs1 xs2 : Vec F S512x1 .f32) :
    sout0_C_0 c i arg2 harg2 arg3 harg3 arg4 harg4 arg5 harg5 arg6 harg6 arg7 harg7 arg8 harg8 hc0 hc1 x0 x1 x2 xs0 xs1 xs2 = newMax x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem last_sum (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x1 .f32) (x1 : Vec F S512x1 .i32) (x2 : Vec F S512x3200 .f32) (xs0 xs1 xs2 : Vec F S512x1 .f32) :
    sout0_C_1 c i arg2 harg2 arg3 harg3 arg4 harg4 arg5 harg5 arg6 harg6 arg7 harg7 arg8 harg8 hc0 hc1 x0 x1 x2 xs0 xs1 xs2 = newSum x2 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem last_pick (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x1 .f32) (x1 : Vec F S512x1 .i32) (x2 : Vec F S512x3200 .f32) (xs0 xs1 xs2 : Vec F S512x1 .f32) :
    sout0_C_2 c i arg2 harg2 arg3 harg3 arg4 harg4 arg5 harg5 arg6 harg6 arg7 harg7 arg8 harg8 hc0 hc1 x0 x1 x2 xs0 xs1 xs2 = newPick i x2 x1 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem last_out (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i)
    (x0 : Vec F S512x1 .f32) (x1 : Vec F S512x1 .i32) (x2 : Vec F S512x3200 .f32) (xs0 xs1 xs2 : Vec F S512x1 .f32) :
    out0_C_3 c i arg2 harg2 arg3 harg3 arg4 harg4 arg5 harg5 arg6 harg6 arg7 harg7 arg8 harg8 hc0 hc1 x0 x1 x2 xs0 xs1 xs2 = k0_pay3 (newMax x2 xs0) (newSum x2 xs0 xs1) (newPick i x2 x1 xs2) x0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

/-! ## The first vocabulary tile: the columns are reset, then the same step -/

theorem first_max (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x1 .f32) (x1 : Vec F S512x1 .i32) (x2 : Vec F S512x3200 .f32) :
    sout0_A_0 c i arg2 harg2 arg3 harg3 arg4 harg4 arg5 harg5 arg6 harg6 arg7 harg7 arg8 harg8 hc0 hc1 x0 x1 x2 = newMax x2 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem first_sum (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x1 .f32) (x1 : Vec F S512x1 .i32) (x2 : Vec F S512x3200 .f32) :
    sout0_A_1 c i arg2 harg2 arg3 harg3 arg4 harg4 arg5 harg5 arg6 harg6 arg7 harg7 arg8 harg8 hc0 hc1 x0 x1 x2 = newSum x2 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

theorem first_pick (c : Dev nD) (i : grid0.Coords) (arg2 : Memref sig .tc .vmem S512x1 .f32) (harg2 : arg2.IsWhole) (arg3 : Memref sig .tc .vmem S512x1 .i32) (harg3 : arg3.IsWhole) (arg4 : Memref sig .tc .vmem S512x3200 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i)
    (x0 : Vec F S512x1 .f32) (x1 : Vec F S512x1 .i32) (x2 : Vec F S512x3200 .f32) :
    sout0_A_2 c i arg2 harg2 arg3 harg3 arg4 harg4 arg5 harg5 arg6 harg6 arg7 harg7 arg8 harg8 hc0 hc1 x0 x1 x2 = newPick i x2 x1 (k0_pay6 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg6.read_unread, harg7.read_unread, harg8.read_unread,
    View.ld_unit_zero (S := S512x1) hz, View.ld_unit_zero (S := S512x3200) hz, View.readCov_unit_zero (S := S512x1) _ hz]

end Cert.KernelIdeal.Tile

end
-- ==== Proof.Blocks.lean ====
/-
  What each input window's block holds at a grid point, read at one element, in terms of the ARGUMENT arrays.

  The grid has 8 × 10 points; point `t = 10·i + k` has row tile `i = t / 10` and vocabulary tile `k = t % 10`.
  The three input windows run over arrays the host lines before the call make from the arguments:
    weights  [4096, 1]      = the reshape of argument 0, [16, 256];
    labels   [4096, 1]      = the reshape of argument 2, [256], broadcast along a new leading axis to [16, 256];
    logits   [4096, 32000]  = the reshape of argument 1, [16, 256, 32000].
  A block's element sits in its array, on each axis, at block index × block size + its own coordinate: local row `a`
  of row tile `i` is global row `r = 512·i + a`, local column `u` of vocabulary tile `k` is class `3200·k + u`.
  A reshape keeps row-major positions, so global row `r` of the flattened [4096] axis is step `r / 256`, sample
  `r % 256` (`r = 256·(r / 256) + r % 256`), and the broadcast label array does not depend on the step.
  Nothing here computes with floats: the statements hold for every float instance.
-/
import proofs.«428657_j34385508171853_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-! ## The windows' arrays as the region finds them: the host lines' terms of the arguments -/

/-- The weights' array is the reshape of argument 0 from [16, 256] to [4096, 1]. -/
theorem e_v0 (c : Dev nD) : (V m c main_v0 : S4096x1.Idx → Elt F .f32)
    = shapeCast S4096x1 (m ((c : Thread nD τ).loc main_arg0) : S16x256.Idx → Elt F .f32) shapeCasts_S16x256_S4096x1 := by
  show StableHlo.after hostOps0 (fun b => m (c, b)) (Proc.devRef .tc main_v0) = _
  after_results
  rfl

/-- The logits' array is the reshape of argument 1 from [16, 256, 32000] to [4096, 32000]. -/
theorem e_v1 (c : Dev nD) : (V m c main_v1 : S4096x32000.Idx → Elt F .f32)
    = shapeCast S4096x32000 (m ((c : Thread nD τ).loc main_arg1) : S16x256x32000.Idx → Elt F .f32) shapeCasts_S16x256x32000_S4096x32000 := by
  show StableHlo.after hostOps0 (fun b => m (c, b)) (Proc.devRef .tc main_v1) = _
  after_results
  rfl

/-- The labels' array is argument 2, [256], broadcast to [1, 256], then to [16, 256], then reshaped to [4096, 1]. -/
theorem e_v4 (c : Dev nD) : (V m c main_v4 : S4096x1.Idx → Elt F .i32)
    = shapeCast S4096x1 (broadcastInDim S16x256 ![0, 1] bcast_S1x256_S16x256_0_1
        (broadcastInDim S1x256 ![1] bcast_S256_S1x256_1 (m ((c : Thread nD τ).loc main_arg2) : S256.Idx → Elt F .i32)))
        shapeCasts_S16x256_S4096x1 := by
  show StableHlo.after hostOps0 (fun b => m (c, b)) (Proc.devRef .tc main_v4) = _
  after_results
  rfl

/-! ## The index maps over the grid: block index (t / 10, 0) for the two column windows, (t / 10, t % 10) for the logits -/

theorem idx0 : ∀ t : Fin cfg0.N, win0_0.index t (0 : Fin 2) = t.val / 10 ∧ win0_0.index t (1 : Fin 2) = 0 :=
  (by decide +kernel : ∀ t : Fin grid0.N, win0_0.index t (0 : Fin 2) = t.val / 10 ∧ win0_0.index t (1 : Fin 2) = 0)
theorem idx1 : ∀ t : Fin cfg0.N, win0_1.index t (0 : Fin 2) = t.val / 10 ∧ win0_1.index t (1 : Fin 2) = 0 :=
  (by decide +kernel : ∀ t : Fin grid0.N, win0_1.index t (0 : Fin 2) = t.val / 10 ∧ win0_1.index t (1 : Fin 2) = 0)
theorem idx2 : ∀ t : Fin cfg0.N, win0_2.index t (0 : Fin 2) = t.val / 10 ∧ win0_2.index t (1 : Fin 2) = t.val % 10 :=
  (by decide +kernel : ∀ t : Fin grid0.N, win0_2.index t (0 : Fin 2) = t.val / 10 ∧ win0_2.index t (1 : Fin 2) = t.val % 10)

/-! ## Coordinates -/

/-- The global row of local row `a` in row tile `t / 10`: `512·(t / 10) + a`, below 4096 since `t < 80`. -/
def rowOf (t : Fin cfg0.N) (a : Fin 512) : Fin 4096 :=
  ⟨512 * (t.val / 10) + a.val, by have := t.isLt; have hN : cfg0.N = 80 := N_0; have := a.isLt; omega⟩
/-- The step of a global row: `r / 256`. -/
def stepOf (r : Fin 4096) : Fin 16 := ⟨r.val / 256, by have := r.isLt; omega⟩
/-- The sample of a global row: `r % 256`. -/
def sampleOf (r : Fin 4096) : Fin 256 := ⟨r.val % 256, by omega⟩
/-- The class of local column `u` in vocabulary tile `t % 10`: `3200·(t % 10) + u`. -/
def colOf (t : Fin cfg0.N) (u : Fin 3200) : Fin 32000 :=
  ⟨3200 * (t.val % 10) + u.val, by have := u.isLt; omega⟩

/-! ## The host operations read at an index -/

/-- The reshape [16, 256] → [4096, 1] at row `r`: both sides sit at row-major position `r = 256·(r / 256) + r % 256`. -/
theorem reshape2_at {α : Type} (x : S16x256.Idx → α) (r : Fin 4096) :
    shapeCast S4096x1 x shapeCasts_S16x256_S4096x1 (ix2 r (0 : Fin 1)) = x (ix2 (stepOf r) (sampleOf r)) := by
  refine shapeCast_apply x _ (ix2 r (0 : Fin 1)) (ix2 (stepOf r) (sampleOf r)) ?_
  rw [Shape.rowMajor_val_two, Shape.rowMajor_val_two]
  show (r.val / 256) * 256 + r.val % 256 = r.val * 1 + 0
  omega

/-- The reshape [16, 256, 32000] → [4096, 32000] at `(r, v)`: position `((r / 256)·256 + r % 256)·32000 + v = r·32000 + v`. -/
theorem reshape3_at {α : Type} (x : S16x256x32000.Idx → α) (r : Fin 4096) (v : Fin 32000) :
    shapeCast S4096x32000 x shapeCasts_S16x256x32000_S4096x32000 (ix2 r v) = x (ix3 (stepOf r) (sampleOf r) v) := by
  refine shapeCast_apply x _ (ix2 r v) (ix3 (stepOf r) (sampleOf r) v) ?_
  rw [Shape.rowMajor_val_three, Shape.rowMajor_val_two]
  show ((r.val / 256) * 256 + r.val % 256) * 32000 + v.val = r.val * 32000 + v.val
  omega

/-- The two broadcasts [256] → [1, 256] → [16, 256] at `(i, s)`: the operand at `s`, whatever the step `i`
    (the unit axis reads coordinate 0, the axis of extent 256 reads `s`). -/
theorem bcast_at {α : Type} (x : S256.Idx → α) (i : Fin 16) (s : Fin 256) :
    broadcastInDim S16x256 ![0, 1] bcast_S1x256_S16x256_0_1 (broadcastInDim S1x256 ![1] bcast_S256_S1x256_1 x) (ix2 i s)
      = x (ix1 s) := by
  refine (broadcastInDim_apply _ bcast_S1x256_S16x256_0_1 _ (ix2 i s) (ix2 (0 : Fin 1) s) (fun a => ?_)).trans ?_
  · match a with
    | ⟨0, _⟩ => show (0 : Nat) = if (1 : Nat) = 1 then 0 else _; rw [if_pos rfl]
    | ⟨1, _⟩ => show s.val = if (256 : Nat) = 1 then 0 else s.val; rw [if_neg (by decide)]
  · refine broadcastInDim_apply _ bcast_S256_S1x256_1 x (ix2 (0 : Fin 1) s) (ix1 s) (fun a => ?_)
    match a with
    | ⟨0, _⟩ => show s.val = if (256 : Nat) = 1 then 0 else s.val; rw [if_neg (by decide)]

/-! ## The blocks -/

/-- The weights' block at point `t`: 512 rows of the [4096, 1] array. -/
abbrev weightsBlk (c : Dev nD) (t : Fin cfg0.N) : Vec F S512x1 .f32 := iblk m c 0 t
/-- The labels' block at point `t`: 512 rows of the [4096, 1] array. -/
abbrev labelsBlk (c : Dev nD) (t : Fin cfg0.N) : Vec F S512x1 .i32 := iblk m c 1 t
/-- The logits' block at point `t`: 512 rows by 3200 classes of the [4096, 32000] array. -/
abbrev logitsBlk (c : Dev nD) (t : Fin cfg0.N) : Vec F S512x3200 .f32 := iblk m c 2 t

/-- Local row `a` of the weights' block is global row `512·(t / 10) + a` of its array
    (block index × block size + the coordinate inside the block, on each axis). -/
theorem weights_blk (c : Dev nD) (t : Fin cfg0.N) (a : Fin 512) :
    weightsBlk m c t (ix2 a (0 : Fin 1)) = (V m c main_v0 : S4096x1.Idx → Elt F .f32) (ix2 (rowOf t a) (0 : Fin 1)) := by
  have hi := idx0 t
  unfold weightsBlk iblk
  rw [View.read_apply]
  show V m c main_v0 _ = V m c main_v0 _
  congr 1
  funext d
  apply Fin.ext
  match d with
  | ⟨0, _⟩ => show win0_0.index t 0 * 512 + 1 * a.val = 512 * (t.val / 10) + a.val; rw [hi.1]; omega
  | ⟨1, _⟩ => show win0_0.index t 1 * 1 + 1 * 0 = 0; rw [hi.2]

/-- Local row `a` of the labels' block is global row `512·(t / 10) + a` of its array. -/
theorem labels_blk (c : Dev nD) (t : Fin cfg0.N) (a : Fin 512) :
    labelsBlk m c t (ix2 a (0 : Fin 1)) = (V m c main_v4 : S4096x1.Idx → Elt F .i32) (ix2 (rowOf t a) (0 : Fin 1)) := by
  have hi := idx1 t
  unfold labelsBlk iblk
  rw [View.read_apply]
  show V m c main_v4 _ = V m c main_v4 _
  congr 1
  funext d
  apply Fin.ext
  match d with
  | ⟨0, _⟩ => show win0_1.index t 0 * 512 + 1 * a.val = 512 * (t.val / 10) + a.val; rw [hi.1]; omega
  | ⟨1, _⟩ => show win0_1.index t 1 * 1 + 1 * 0 = 0; rw [hi.2]

/-- Element `(a, u)` of the logits' block is element `(512·(t / 10) + a, 3200·(t % 10) + u)` of its array. -/
theorem logits_blk (c : Dev nD) (t : Fin cfg0.N) (a : Fin 512) (u : Fin 3200) :
    logitsBlk m c t (ix2 a u) = (V m c main_v1 : S4096x32000.Idx → Elt F .f32) (ix2 (rowOf t a) (colOf t u)) := by
  have hi := idx2 t
  unfold logitsBlk iblk
  rw [View.read_apply]
  show V m c main_v1 _ = V m c main_v1 _
  congr 1
  funext d
  apply Fin.ext
  match d with
  | ⟨0, _⟩ => show win0_2.index t 0 * 512 + 1 * a.val = 512 * (t.val / 10) + a.val; rw [hi.1]; omega
  | ⟨1, _⟩ => show win0_2.index t 1 * 3200 + 1 * u.val = 3200 * (t.val % 10) + u.val; rw [hi.2]; omega

/-! ## The blocks read at an element, in terms of the arguments -/

/-- Local row `a` of the weights' block at point `t` is argument 0 at (step, sample) of global row `512·(t / 10) + a`. -/
theorem weights_at (c : Dev nD) (t : Fin cfg0.N) (a : Fin 512) :
    weightsBlk m c t (ix2 a (0 : Fin 1))
      = (m ((c : Thread nD τ).loc main_arg0) : S16x256.Idx → Elt F .f32) (ix2 (stepOf (rowOf t a)) (sampleOf (rowOf t a))) := by
  refine (weights_blk m c t a).trans ?_
  rw [e_v0 m c]
  exact reshape2_at _ (rowOf t a)

/-- Local row `a` of the labels' block at point `t` is argument 2 at the sample of global row `512·(t / 10) + a`:
    the labels are shared by all steps. -/
theorem labels_at (c : Dev nD) (t : Fin cfg0.N) (a : Fin 512) :
    labelsBlk m c t (ix2 a (0 : Fin 1))
      = (m ((c : Thread nD τ).loc main_arg2) : S256.Idx → Elt F .i32) (ix1 (sampleOf (rowOf t a))) := by
  refine (labels_blk m c t a).trans ?_
  rw [e_v4 m c]
  refine (reshape2_at _ (rowOf t a)).trans ?_
  exact bcast_at _ (stepOf (rowOf t a)) (sampleOf (rowOf t a))

/-- Element `(a, u)` of the logits' block at point `t` is argument 1 at (step, sample) of global row
    `512·(t / 10) + a` and class `3200·(t % 10) + u`. -/
theorem logits_at (c : Dev nD) (t : Fin cfg0.N) (a : Fin 512) (u : Fin 3200) :
    logitsBlk m c t (ix2 a u)
      = (m ((c : Thread nD τ).loc main_arg1) : S16x256x32000.Idx → Elt F .f32)
          (ix3 (stepOf (rowOf t a)) (sampleOf (rowOf t a)) (colOf t u)) := by
  refine (logits_blk m c t a u).trans ?_
  rw [e_v1 m c]
  exact reshape3_at _ (rowOf t a) (colOf t u)

end Cert.KernelIdeal.Blocks

end
-- ==== Proof.Carry.lean ====
/-
  The three columns carried from grid point to grid point. After a point the columns are the one-tile step applied to what
  the point before left — or, at the first vocabulary tile of a row tile, to the seed (the finite stand-in for −∞, 0, 0) —
  and at the last vocabulary tile the output block is `p · ((max + log sum) − picked)` of the columns just computed.
-/
import proofs.«428657_j34385508171853_3_alg».proof.Proof.Tile
import proofs.«428657_j34385508171853_3_alg».proof.Proof.Blocks

set_option maxRecDepth 16384

noncomputable section

namespace Cert.KernelIdeal.Carry

open Cert.KernelIdeal Cert.KernelIdeal.Gen Cert.KernelIdeal.Tile Cert.KernelIdeal.Blocks
open Idealize.ShloMosaic Idealize.ShloMosaic.TcCoe Idealize.SL.Sem

variable {F : FTy → Type} [FloatOps F]
variable (m : (ℓ : Loc nD τ sig) → Buf (Elt F) ℓ)

/-- The columns after a point, at their literal types. -/
abbrev maxAt (c : Dev nD) (n : ℕ) (hn : n < cfg0.N) : Vec F S512x1 .f32 := (outsAt0 m c n hn).2.1
abbrev sumAt (c : Dev nD) (n : ℕ) (hn : n < cfg0.N) : Vec F S512x1 .f32 := (outsAt0 m c n hn).2.2.1
abbrev pickAt (c : Dev nD) (n : ℕ) (hn : n < cfg0.N) : Vec F S512x1 .f32 := (outsAt0 m c n hn).2.2.2
abbrev outAt (c : Dev nD) (n : ℕ) (hn : n < cfg0.N) : Vec F S512x1 .f32 := (outsAt0 m c n hn).1

/-- At the first vocabulary tile of a row tile the columns are the step from the seed. -/
theorem at_first (c : Dev nD) (t : Fin cfg0.N) (h0 : t.val % 10 = 0) (h1 : ¬t.val % 10 = 9) :
    maxAt m c t.val t.isLt = newMax (logitsBlk m c t) (k0_pay4 (F := F))
    ∧ sumAt m c t.val t.isLt = newSum (logitsBlk m c t) (k0_pay4 (F := F)) (k0_pay5 (F := F))
    ∧ pickAt m c t.val t.isLt = newPick (grid0.coords t) (logitsBlk m c t) (labelsBlk m c t) (k0_pay6 (F := F)) := by
  unfold maxAt sumAt pickAt
  rw [outsAt0_A m c t h0 h1]
  dsimp only
  exact ⟨first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    first_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- At a middle vocabulary tile the columns are the step from what the point before left. -/
theorem at_middle (c : Dev nD) (t : Fin cfg0.N) (h0 : ¬t.val % 10 = 0) (h1 : ¬t.val % 10 = 9) :
    maxAt m c t.val t.isLt = newMax (logitsBlk m c t) (maxAt m c (t.val - 1) (Nat.lt_of_le_of_lt (Nat.sub_le _ _) t.isLt))
    ∧ sumAt m c t.val t.isLt = newSum (logitsBlk m c t) (maxAt m c (t.val - 1) (Nat.lt_of_le_of_lt (Nat.sub_le _ _) t.isLt))
        (sumAt m c (t.val - 1) (Nat.lt_of_le_of_lt (Nat.sub_le _ _) t.isLt))
    ∧ pickAt m c t.val t.isLt = newPick (grid0.coords t) (logitsBlk m c t) (labelsBlk m c t)
        (pickAt m c (t.val - 1) (Nat.lt_of_le_of_lt (Nat.sub_le _ _) t.isLt)) := by
  unfold maxAt sumAt pickAt
  rw [outsAt0_B m c t h0 h1]
  dsimp only
  exact ⟨mid_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At the last vocabulary tile the columns step once more and the output block is written from them. -/
theorem at_last (c : Dev nD) (t : Fin cfg0.N) (h0 : ¬t.val % 10 = 0) (h1 : t.val % 10 = 9) :
    maxAt m c t.val t.isLt = newMax (logitsBlk m c t) (maxAt m c (t.val - 1) (Nat.lt_of_le_of_lt (Nat.sub_le _ _) t.isLt))
    ∧ sumAt m c t.val t.isLt = newSum (logitsBlk m c t) (maxAt m c (t.val - 1) (Nat.lt_of_le_of_lt (Nat.sub_le _ _) t.isLt))
        (sumAt m c (t.val - 1) (Nat.lt_of_le_of_lt (Nat.sub_le _ _) t.isLt))
    ∧ pickAt m c t.val t.isLt = newPick (grid0.coords t) (logitsBlk m c t) (labelsBlk m c t)
        (pickAt m c (t.val - 1) (Nat.lt_of_le_of_lt (Nat.sub_le _ _) t.isLt))
    ∧ outAt m c t.val t.isLt = k0_pay3 (maxAt m c t.val t.isLt) (sumAt m c t.val t.isLt) (pickAt m c t.val t.isLt) (weightsBlk m c t) := by
  unfold maxAt sumAt pickAt outAt
  rw [outsAt0_C m c t h0 h1]
  dsimp only
  refine ⟨last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ?_⟩
  rw [last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_pick c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Carry

end
-- ==== Proof.TileAt.lean ====
/-
  One grid point's step read at one row. At row `a` of the tile the new running maximum is the larger of the old one and the
  tile's row maximum; the new running sum is the old one times `e^(old max − new max)` plus the row's sum of
  `e^(x − new max)`; the new masked sum adds the row's entries at the position that is the label; and the value written at
  the last vocabulary tile is `p · ((max + log sum) − picked)`.
-/
import proofs.«428657_j34385508171853_3_alg».proof.Proof.Tile
import Idealize.ShloMosaic.Lib.ValueIdx
import Idealize.ShloMosaic.PureOps.Ideal.Laws

set_option maxRecDepth 16384

noncomputable section

namespace Cert.KernelIdeal.Tile

open Cert.KernelIdeal Cert.KernelIdeal.Gen
open Idealize.ShloMosaic Idealize.ShloMosaic.ValueIdx

/-- A column made from a vector by adding a unit axis reads the vector's entry. -/
theorem column_apply {α : Type} (v : S512.Idx → α) (h : S512.ShapeCasts S512x1) (a : Fin 512) :
    shapeCast S512x1 v h (ix2 a (0 : Fin 1)) = v (ix1 a) :=
  shapeCast_apply v h (ix2 a (0 : Fin 1)) (ix1 a) (by
    rw [Shape.rowMajor_val_one, Shape.rowMajor_val_two]
    show a.val = a.val * 1 + 0
    omega)

/-- The index a one-axis reduction over the columns inserts at row `a` is (a, u). -/
theorem lift_row (h : S512x3200.Reduces [1] S512) (a : Fin 512) (u : Fin 3200) :
    h.lift (ix1 a) u = ix2 a u := by
  funext d
  refine Fin.ext ?_
  match d with
  | ⟨0, _⟩ => rfl
  | ⟨1, _⟩ => rfl

/-- A row sum of a tile. -/
theorem rowsum_apply (v : FVec Ideal S512x3200 .f32) (h : S512x3200.Reduces [1] S512) (hφ : FKind.Formats .f32)
    (hacc : (0x00000000#32 : BitVec 32) = 0x00000000#32) (a : Fin 512) :
    multiReduction .add [1] S512 v 0x00000000#32 h hφ hacc (ix1 a) = ∑ u : Fin 3200, v (ix2 a u) := by
  refine (Ideal.multiReduction_add_single v 0x00000000#32 h hφ hacc (ix1 a)).trans ?_
  exact Finset.sum_congr rfl fun u _ => congrArg v (lift_row h a u)

/-- A row maximum of a tile, from −∞. -/
theorem rowmax_apply (v : FVec Ideal S512x3200 .f32) (h : S512x3200.Reduces [1] S512) (hφ : FKind.Formats .f32)
    (hacc : (0xFF800000#32 : BitVec 32) = 0xFF800000#32) (a : Fin 512) :
    multiReduction .maximumf [1] S512 v 0xFF800000#32 h hφ hacc (ix1 a)
      = (Finset.univ : Finset (Fin 3200)).fold max ⊥ (fun u => v (ix2 a u)) := by
  refine (Ideal.multiReduction_maximumf_single v 0xFF800000#32 h hφ hacc (ix1 a)).trans ?_
  have e : (v ∘ h.lift (ix1 a)) = fun u : Fin 3200 => v (ix2 a u) := funext fun u => congrArg v (lift_row h a u)
  have eb : (FloatOps.ofBits (F := Ideal) .f32 0xFF800000#32 : EReal) = ⊥ := by
    simp [Ideal.ofBits, Ideal.ieee]
  rw [e, eb]
  rfl

/-- A column broadcast along the row reads the column's entry of that row. -/
theorem col_bcast_apply {α : Type} (v : S512x1.Idx → α) (h : S512x1.Broadcasts S512x3200) (a : Fin 512) (u : Fin 3200) :
    broadcastTo S512x3200 v h (ix2 a u) = v (ix2 a (0 : Fin 1)) :=
  broadcastTo_apply v h (ix2 a u) (ix2 a (0 : Fin 1)) (fun d => match d with
    | ⟨0, _⟩ => by show a.val = if (512 : Nat) = 1 then 0 else a.val; rw [if_neg (by decide)]
    | ⟨1, _⟩ => by show 0 = if (1 : Nat) = 1 then 0 else u.val; rw [if_pos rfl])

/-- A row broadcast down the columns reads the row's entry of that column. -/
theorem row_bcast_apply {α : Type} (v : S1x3200.Idx → α) (h : S1x3200.Broadcasts S512x3200) (a : Fin 512) (u : Fin 3200) :
    broadcastTo S512x3200 v h (ix2 a u) = v (ix2 (0 : Fin 1) u) :=
  broadcastTo_apply v h (ix2 a u) (ix2 (0 : Fin 1) u) (fun d => match d with
    | ⟨0, _⟩ => by show 0 = if (1 : Nat) = 1 then 0 else a.val; rw [if_pos rfl]
    | ⟨1, _⟩ => by show u.val = if (3200 : Nat) = 1 then 0 else u.val; rw [if_neg (by decide)])

/-- The new running maximum at row `a`: the larger of the old one and the row's maximum over the tile. -/
theorem newMax_at (x : Vec Ideal S512x3200 .f32) (mx : Vec Ideal S512x1 .f32) (a : Fin 512) :
    newMax x mx (ix2 a (0 : Fin 1))
      = max (mx (ix2 a (0 : Fin 1))) ((Finset.univ : Finset (Fin 3200)).fold max ⊥ (fun u => x (ix2 a u))) := by
  simp only [newMax, k0_pay2, k0_pay9, k0_pay7, shapeCast_self]
  refine (maximumf_apply _ _ _).trans (congrArg (max (mx (ix2 a (0 : Fin 1)))) ?_)
  refine (column_apply _ _ a).trans ?_
  exact rowmax_apply x _ _ _ a

/-- The new running sum at row `a`: the old sum rescaled by `e^(old max − new max)` plus the row's `∑ e^(x − new max)`. -/
theorem newSum_at (x : Vec Ideal S512x3200 .f32) (mx sm : Vec Ideal S512x1 .f32) (a : Fin 512) :
    newSum x mx sm (ix2 a (0 : Fin 1))
      = sm (ix2 a (0 : Fin 1)) * Ideal.exp (mx (ix2 a (0 : Fin 1)) - newMax x mx (ix2 a (0 : Fin 1)))
        + ∑ u : Fin 3200, Ideal.exp (x (ix2 a u) - newMax x mx (ix2 a (0 : Fin 1))) := by
  simp only [newSum, newMax, k0_pay1, k0_pay2, k0_pay10, k0_pay7, shapeCast_self]
  refine (addf_apply _ _ _).trans (congrArg₂ (· + ·) rfl ?_)
  refine (column_apply _ _ a).trans ?_
  refine (rowsum_apply _ _ _ _ a).trans ?_
  refine Finset.sum_congr rfl fun u _ => ?_
  show Ideal.exp (x (ix2 a u) - broadcastTo S512x3200 (k0_pay9 x mx) broadcasts_S512x1_S512x3200 (ix2 a u)) = _
  rw [col_bcast_apply]

/-- The new masked sum at row `a`: the old one plus the row's entries at the position the label names. -/
theorem newPick_at (i : grid0.Coords) (x : Vec Ideal S512x3200 .f32) (lab : Vec Ideal S512x1 .i32) (pk : Vec Ideal S512x1 .f32)
    (a : Fin 512) :
    newPick i x lab pk (ix2 a (0 : Fin 1))
      = pk (ix2 a (0 : Fin 1)) + ∑ u : Fin 3200, (if IntOp.cmpi .eq (BitVec.ofNat 32 u.val)
          (lab (ix2 a (0 : Fin 1)) - BitVec.ofNat 32 (i 1).val * 3200#32) = 1#1 then x (ix2 a u) else 0) := by
  simp only [newPick, k0_pay8, k0_pay7, shapeCast_self]
  refine (addf_apply _ _ _).trans (congrArg₂ (· + ·) rfl ?_)
  refine (column_apply _ _ a).trans ?_
  refine (rowsum_apply _ _ _ _ a).trans ?_
  refine Finset.sum_congr rfl fun u _ => ?_
  show Scalar.select (IntOp.cmpi .eq
      (broadcastTo S512x3200 (iota Kind.tc S1x3200 32 [1] iota_S1x3200_d1_w32) broadcasts_S1x3200_S512x3200 (ix2 a u))
      (broadcastTo S512x3200 (subi lab (broadcast S512x1 (Scalar.muli (BitVec.ofNat 32 (i 1).val) 3200#32)))
        broadcasts_S512x1_S512x3200 (ix2 a u))) (x (ix2 a u)) (Ideal.ofBits .f32 0x00000000#32) = _
  rw [col_bcast_apply, row_bcast_apply, iota_single_apply, Ideal.ofBits_zero_f32]
  rfl

/-- What the last vocabulary tile writes at row `a`: `p · ((max + log sum) − picked)`. -/
theorem out_at (mx sm pk p : Vec Ideal S512x1 .f32) (a : Fin 512) :
    k0_pay3 mx sm pk p (ix2 a (0 : Fin 1))
      = p (ix2 a (0 : Fin 1)) * ((mx (ix2 a (0 : Fin 1)) + Ideal.log (sm (ix2 a (0 : Fin 1)))) - pk (ix2 a (0 : Fin 1))) := by
  simp only [k0_pay3, shapeCast_self]
  rfl

end Cert.KernelIdeal.Tile

end
-- ==== Proof.LogSumExp.lean ====
/-
  Log-sum-exp over a row of real logits, streamed tile by tile.

  For a row `X : ℕ → ℝ` (only the entries below the row length matter) and any real shift `c`,
  `c + log (∑_{v<N} e^{X v - c}) = log (∑_{v<N} e^{X v})`: the shift cancels, so a running maximum that is
  only SOME real number (a finite seed, a true maximum, a maximum over a prefix) gives the same log-sum-exp.
  A streaming pass keeps `c` and `∑_{v<N} e^{X v - c}`; when the shift moves from `c` to `c'` the old sum is
  rescaled by `e^{c - c'}` and the next tile's terms are added: the invariant "the sum is `expSum X c N`" is
  kept. The label's logit is picked by a masked sum, `∑_{v<N} [v = y] X v`, which is `X y` once `y < N`.
  The extended reals enter only as the carrier: every quantity here is the coercion of a real.
-/
import Idealize.ShloMosaic.PureOps.Ideal

noncomputable section

namespace Cert.LogSumExp

open Finset Idealize.ShloMosaic

/-- `∑_{v<N} e^{X v - c}`: the shifted exponential sum over a prefix of the row. -/
def expSum (X : ℕ → ℝ) (c : ℝ) (N : ℕ) : ℝ := ∑ v ∈ range N, Real.exp (X v - c)

/-- `∑_{v<N} [v = y] X v`: the masked sum that picks the label's logit. -/
def pick (X : ℕ → ℝ) (y N : ℕ) : ℝ := ∑ v ∈ range N, if v = y then X v else 0

/-- `log ∑_{v<N} e^{X v}`. -/
def lse (X : ℕ → ℝ) (N : ℕ) : ℝ := Real.log (∑ v ∈ range N, Real.exp (X v))

/-- One row's weighted cross entropy `p · (lse X − X y)` over 32000 classes. -/
def rowLoss (p : ℝ) (X : ℕ → ℝ) (y : ℕ) : ℝ := p * (lse X 32000 - X y)

theorem expSum_zero (X : ℕ → ℝ) (c : ℝ) : expSum X c 0 = 0 := by
  simp [expSum]

theorem pick_zero (X : ℕ → ℝ) (y : ℕ) : pick X y 0 = 0 := by
  simp [pick]

/-- Once the prefix contains the label, the masked sum is the label's logit. -/
theorem pick_eq (X : ℕ → ℝ) (y N : ℕ) (hy : y < N) : pick X y N = X y := by
  unfold pick
  rw [Finset.sum_ite_eq' (range N) y X, if_pos (Finset.mem_range.mpr hy)]

/-- The shift cancels: `c + log ∑ e^{X v - c} = log ∑ e^{X v}` over a nonempty prefix. -/
theorem shift_cancel (X : ℕ → ℝ) (c : ℝ) (N : ℕ) (hN : 0 < N) : c + Real.log (expSum X c N) = lse X N := by
  -- the unshifted sum is positive: a nonempty sum of exponentials
  have hS : 0 < ∑ v ∈ range N, Real.exp (X v) :=
    Finset.sum_pos (fun v _ => Real.exp_pos _) (Finset.nonempty_range_iff.mpr hN.ne')
  -- e^{X v - c} = e^{X v} · e^{-c}, so the factor e^{-c} comes out of the sum
  have h : expSum X c N = (∑ v ∈ range N, Real.exp (X v)) * Real.exp (-c) := by
    unfold expSum
    rw [Finset.sum_mul]
    refine Finset.sum_congr rfl (fun v _ => ?_)
    rw [← Real.exp_add, sub_eq_add_neg]
  -- log (S · e^{-c}) = log S - c
  rw [h, Real.log_mul hS.ne' (Real.exp_pos _).ne', Real.log_exp]
  unfold lse
  ring

/-- A finite sum of coerced reals is the coercion of the real sum. -/
theorem coe_sum {ι : Type*} (s : Finset ι) (f : ι → ℝ) :
    ∑ u ∈ s, ((f u : ℝ) : EReal) = ((∑ u ∈ s, f u : ℝ) : EReal) := by
  classical
  induction s using Finset.induction_on with
  | empty => simp
  | insert a s ha ih => rw [Finset.sum_insert ha, Finset.sum_insert ha, ih, EReal.coe_add]

/-- The coercion of reals into the extended reals is monotone, so it commutes with `max`. -/
theorem coe_max_coe (a b : ℝ) : max (a : EReal) (b : EReal) = ((max a b : ℝ) : EReal) :=
  (EReal.coe_strictMono.monotone.map_max).symm

/-- A nonempty shifted exponential sum is positive. -/
theorem expSum_pos (X : ℕ → ℝ) (c : ℝ) {N : ℕ} (hN : 0 < N) : 0 < expSum X c N :=
  Finset.sum_pos (fun v _ => Real.exp_pos _) (Finset.nonempty_range_iff.mpr hN.ne')

/-- Moving the shift from `c` to `c'` rescales the sum by `e^{c - c'}`; adding the next `T` terms at the new shift
    gives the sum over the longer prefix. -/
theorem expSum_rescale (X : ℕ → ℝ) (N T : ℕ) (c c' : ℝ) :
    expSum X c N * Real.exp (c - c') + ∑ u : Fin T, Real.exp (X (N + u.val) - c') = expSum X c' (N + T) := by
  unfold expSum
  rw [Finset.sum_range_add, Fin.sum_univ_eq_sum_range (fun i => Real.exp (X (N + i) - c')) T, Finset.sum_mul]
  congr 1
  refine Finset.sum_congr rfl (fun v _ => ?_)
  rw [← Real.exp_add]
  congr 1
  ring

/-- The maximum (from `⊥`) over a finite set of reals is `⊥` or a real, and a real once the set is nonempty. -/
theorem foldmax_real_of_nonempty {T : ℕ} (f : Fin T → EReal) (hf : ∀ u, ∃ r : ℝ, f u = (r : EReal))
    (s : Finset (Fin T)) (hs : s.Nonempty) : ∃ r : ℝ, s.fold max ⊥ f = (r : EReal) := by
  classical
  induction s using Finset.induction_on with
  | empty => exact absurd hs Finset.not_nonempty_empty
  | insert a s ha ih =>
    obtain ⟨ra, hra⟩ := hf a
    rw [Finset.fold_insert ha, hra]
    rcases s.eq_empty_or_nonempty with rfl | hne
    · exact ⟨ra, by rw [Finset.fold_empty, max_eq_left bot_le]⟩
    · obtain ⟨r, hr⟩ := ih hne
      exact ⟨max ra r, by rw [hr, coe_max_coe]⟩

/-- The maximum (from `⊥`) of finitely many reals, at least one, is a real. -/
theorem foldmax_real {T : ℕ} (hT : 0 < T) (f : Fin T → EReal) (hf : ∀ u, ∃ r : ℝ, f u = (r : EReal)) :
    ∃ r : ℝ, (univ : Finset (Fin T)).fold max ⊥ f = (r : EReal) := by
  obtain ⟨a⟩ : Nonempty (Fin T) := ⟨⟨0, hT⟩⟩
  exact foldmax_real_of_nonempty f hf univ ⟨a, Finset.mem_univ a⟩

/-- ONE TILE of the streaming pass on the running maximum and the running sum: from the shift `c` and the sum over the
    prefix `N`, a tile of `T` further logits moves the shift to `c' = max c (tile maximum)`, a real, and the rescaled
    old sum plus the tile's shifted exponentials is the sum over the prefix `N + T` at the new shift. -/
theorem tile_step (X : ℕ → ℝ) (N : ℕ) {T : ℕ} (hT : 0 < T) (c : ℝ) (blk : Fin T → EReal)
    (hblk : ∀ u : Fin T, blk u = ((X (N + u.val) : ℝ) : EReal)) :
    ∃ c' : ℝ, max (c : EReal) ((univ : Finset (Fin T)).fold max ⊥ blk) = (c' : EReal)
      ∧ ((expSum X c N : ℝ) : EReal) * Ideal.exp ((c : EReal) - (c' : EReal)) + ∑ u : Fin T, Ideal.exp (blk u - (c' : EReal))
          = ((expSum X c' (N + T) : ℝ) : EReal) := by
  obtain ⟨m, hm⟩ := foldmax_real hT blk (fun u => ⟨_, hblk u⟩)
  refine ⟨max c m, ?_, ?_⟩
  · rw [hm, coe_max_coe]
  · -- every term is the coercion of a real; collect the coercions
    have hterm : ∀ u : Fin T, Ideal.exp (blk u - ((max c m : ℝ) : EReal))
        = ((Real.exp (X (N + u.val) - max c m) : ℝ) : EReal) := by
      intro u
      rw [hblk u, ← EReal.coe_sub, Ideal.exp_coe]
    rw [Finset.sum_congr rfl (fun u _ => hterm u), coe_sum, ← EReal.coe_sub, Ideal.exp_coe,
      ← EReal.coe_mul, ← EReal.coe_add]
    congr 1
    exact expSum_rescale X N T c (max c m)

/-- ONE TILE of the masked sum: adding the tile's entries where the position is the label extends the prefix. -/
theorem pick_step (X : ℕ → ℝ) (y N : ℕ) {T : ℕ} (blk : Fin T → EReal)
    (hblk : ∀ u : Fin T, blk u = ((X (N + u.val) : ℝ) : EReal)) (hit : Fin T → Prop) [DecidablePred hit]
    (hhit : ∀ u : Fin T, hit u ↔ N + u.val = y) :
    ((pick X y N : ℝ) : EReal) + ∑ u : Fin T, (if hit u then blk u else 0) = ((pick X y (N + T) : ℝ) : EReal) := by
  have hterm : ∀ u : Fin T, (if hit u then blk u else 0)
      = (((if N + u.val = y then X (N + u.val) else 0 : ℝ)) : EReal) := by
    intro u
    by_cases h : N + u.val = y
    · rw [if_pos ((hhit u).mpr h), if_pos h, hblk u]
    · rw [if_neg (fun hh => h ((hhit u).mp hh)), if_neg h, EReal.coe_zero]
  rw [Finset.sum_congr rfl (fun u _ => hterm u), coe_sum, ← EReal.coe_add]
  congr 1
  -- the prefix N + T splits into the prefix N and the tile
  unfold pick
  rw [Finset.sum_range_add, Fin.sum_univ_eq_sum_range (fun i => if N + i = y then X (N + i) else 0) T]

/-- The streaming pass's last step on one row: `p · ((c + log sum) − picked)` is the row's weighted cross entropy,
    whatever real the shift `c` ended at. -/
theorem streamed_row (p : ℝ) (X : ℕ → ℝ) (y : ℕ) (hy : y < 32000) (c : ℝ) :
    (p : EReal) * (((c : EReal) + Ideal.log ((expSum X c 32000 : ℝ) : EReal)) - ((pick X y 32000 : ℝ) : EReal))
      = ((rowLoss p X y : ℝ) : EReal) := by
  have hpos : 0 < expSum X c 32000 := expSum_pos X c (by norm_num)
  rw [Ideal.log_coe, if_neg (not_le.mpr hpos), ← EReal.coe_add, shift_cancel X c 32000 (by norm_num),
    pick_eq X y 32000 hy, ← EReal.coe_sub, ← EReal.coe_mul]
  rfl

/-- The two-pass form on one row: with `M` any real (the row maximum in practice), `p · −((X y − M) − log (0 + ∑ e^{X v − M}))`
    is the same weighted cross entropy. -/
theorem two_pass_row (p : ℝ) (X : ℕ → ℝ) (y : ℕ) (hy : y < 32000) (row : Fin 32000 → EReal)
    (hrow : ∀ v : Fin 32000, row v = ((X v.val : ℝ) : EReal)) (M : EReal) (hM : ∃ r : ℝ, M = (r : EReal)) :
    (p : EReal) * -((row ⟨y, hy⟩ - M) - Ideal.log (0 + ∑ v : Fin 32000, Ideal.exp (row v - M)))
      = ((rowLoss p X y : ℝ) : EReal) := by
  obtain ⟨cM, rfl⟩ := hM
  have hpos : 0 < expSum X cM 32000 := expSum_pos X cM (by norm_num)
  -- each shifted exponential is the coercion of a real, and so is their sum
  have hterm : ∀ v : Fin 32000, Ideal.exp (row v - (cM : EReal))
      = ((Real.exp (X v.val - cM) : ℝ) : EReal) := by
    intro v
    rw [hrow v, ← EReal.coe_sub, Ideal.exp_coe]
  have hsum : ∑ v : Fin 32000, Ideal.exp (row v - (cM : EReal)) = ((expSum X cM 32000 : ℝ) : EReal) := by
    rw [Finset.sum_congr rfl (fun v _ => hterm v), coe_sum,
      Fin.sum_univ_eq_sum_range (fun i => Real.exp (X i - cM)) 32000]
    rfl
  have hlab : row ⟨y, hy⟩ = ((X y : ℝ) : EReal) := hrow ⟨y, hy⟩
  rw [hsum, zero_add, Ideal.log_coe, if_neg (not_le.mpr hpos), hlab, ← EReal.coe_sub, ← EReal.coe_sub,
    ← EReal.coe_neg, ← EReal.coe_mul, EReal.coe_eq_coe_iff]
  -- log ∑ e^{X v - M} = lse X - M, and the two M cancel
  have hs := shift_cancel X cM 32000 (by norm_num)
  unfold rowLoss
  rw [← hs]
  ring

end Cert.LogSumExp

end
-- ==== Proof.Running.lean ====
/-
  The streaming pass, row by row. For a row of a row tile, after the vocabulary tile k the three carried columns hold:
  a real shift c (the running maximum — its value never matters), the shifted exponential sum of the row's first
  3200·(k+1) logits at that shift, and the masked sum of those logits at the label. Each tile is one `tile_step` /
  `pick_step`; the first tile starts from the finite seed, sum 0 and masked sum 0, which is the invariant over the
  empty prefix. After the last tile the written value is the row's weighted cross entropy.
-/
import proofs.«428657_j34385508171853_3_alg».proof.Proof.Carry
import proofs.«428657_j34385508171853_3_alg».proof.Proof.TileAt
import proofs.«428657_j34385508171853_3_alg».proof.Proof.LogSumExp
import Idealize.ShloMosaic.Lib.StableHlo.Predicate

set_option maxRecDepth 16384

noncomputable section

namespace Cert.KernelIdeal.Running

open Cert.KernelIdeal Cert.KernelIdeal.Gen Cert.KernelIdeal.Tile Cert.KernelIdeal.Blocks Cert.KernelIdeal.Carry Cert.LogSumExp
open Idealize.ShloMosaic Idealize.ShloMosaic.TcCoe Idealize.SL.Sem Idealize.ShloMosaic.ValueIdx

variable (m : (ℓ : Loc nD τ sig) → Buf (Elt Ideal) ℓ) (c : Dev nD)
variable (pr : Fin 16 → Fin 256 → ℝ) (X : Fin 16 → Fin 256 → ℕ → ℝ)

/-- The three argument arrays at their literal types. -/
abbrev weightsArr : S16x256.Idx → EReal := m ((c : Thread nD τ).loc main_arg0)
abbrev logitsArr : S16x256x32000.Idx → EReal := m ((c : Thread nD τ).loc main_arg1)
abbrev labelsArr : S256.Idx → BitVec 32 := m ((c : Thread nD τ).loc main_arg2)

/-- The inputs are real weights `pr`, real logits `X` and labels that are class indices. -/
structure RealInputs : Prop where
  weights : ∀ (n : Fin 16) (b : Fin 256), weightsArr m c (ix2 n b) = ((pr n b : ℝ) : EReal)
  logits : ∀ (n : Fin 16) (b : Fin 256) (v : Fin 32000), logitsArr m c (ix3 n b v) = ((X n b v.val : ℝ) : EReal)
  labels : ∀ b : Fin 256, (labelsArr m c (ix1 b)).toNat < 32000

/-- The label of sample `b`, as a natural number. -/
abbrev labelOf (b : Fin 256) : ℕ := (labelsArr m c (ix1 b)).toNat

/-- The vocabulary-tile coordinate of a grid point. -/
theorem coord1 : ∀ t : Fin cfg0.N, ((grid0.coords t) (1 : Fin 2)).val = t.val % 10 :=
  (by decide +kernel : ∀ t : Fin grid0.N, ((grid0.coords t) (1 : Fin 2)).val = t.val % 10)

/-- Position `u` of vocabulary tile `k` is the label `w` exactly when the 32-bit words agree: `u = w − 3200·k`. -/
theorem hit_iff (w : BitVec 32) (k u : ℕ) (hk : k < 10) (hu : u < 3200) (hw : w.toNat < 32000) :
    IntOp.cmpi .eq (BitVec.ofNat 32 u) (w - BitVec.ofNat 32 k * 3200#32) = 1#1 ↔ 3200 * k + u = w.toNat := by
  rw [StableHlo.Predicate.cmpi_eq_iff]
  constructor
  · intro h
    have h' := congrArg BitVec.toNat h
    simp only [BitVec.toNat_ofNat, BitVec.toNat_sub, BitVec.toNat_mul, Nat.reducePow, Nat.reduceMod] at h'
    omega
  · intro h
    apply BitVec.eq_of_toNat_eq
    simp only [BitVec.toNat_ofNat, BitVec.toNat_sub, BitVec.toNat_mul, Nat.reducePow, Nat.reduceMod]
    omega

/-- The finite seed of the running maximum is a real number. -/
theorem seed_real : ∃ r : ℝ, Ideal.ofBits .f32 0xFF333332#32 = (r : EReal) := by
  show ∃ r : ℝ, Ideal.ieee 8 23 (0xFF333332#32 : BitVec 32) = (r : EReal)
  unfold Ideal.ieee
  dsimp only
  rw [if_neg (by decide +kernel), if_neg (by decide +kernel)]
  exact ⟨_, rfl⟩

variable {m c pr X}

/-- A tile's logits in a row are the row's real logits at the tile's positions. -/
theorem blk_real (h : RealInputs m c pr X) (t : Fin cfg0.N) (a : Fin 512) (u : Fin 3200) :
    logitsBlk m c t (ix2 a u)
      = ((X (stepOf (rowOf t a)) (sampleOf (rowOf t a)) (3200 * (t.val % 10) + u.val) : ℝ) : EReal) := by
  rw [logits_at m c t a u]
  exact h.logits _ _ (colOf t u)

/-- ONE TILE on one row: from columns holding the invariant over the first `3200·k` logits, the step leaves the
    invariant over the first `3200·k + 3200`. -/
theorem step_row (h : RealInputs m c pr X) (t : Fin cfg0.N) (a : Fin 512) (mx sm pk : Vec Ideal S512x1 .f32) (cr : ℝ)
    (hmx : mx (ix2 a (0 : Fin 1)) = ((cr : ℝ) : EReal))
    (hsm : sm (ix2 a (0 : Fin 1))
      = ((expSum (X (stepOf (rowOf t a)) (sampleOf (rowOf t a))) cr (3200 * (t.val % 10)) : ℝ) : EReal))
    (hpk : pk (ix2 a (0 : Fin 1))
      = ((pick (X (stepOf (rowOf t a)) (sampleOf (rowOf t a))) (labelOf m c (sampleOf (rowOf t a))) (3200 * (t.val % 10)) : ℝ) : EReal)) :
    ∃ cr' : ℝ, newMax (logitsBlk m c t) mx (ix2 a (0 : Fin 1)) = ((cr' : ℝ) : EReal)
      ∧ newSum (logitsBlk m c t) mx sm (ix2 a (0 : Fin 1))
          = ((expSum (X (stepOf (rowOf t a)) (sampleOf (rowOf t a))) cr' (3200 * (t.val % 10) + 3200) : ℝ) : EReal)
      ∧ newPick (grid0.coords t) (logitsBlk m c t) (labelsBlk m c t) pk (ix2 a (0 : Fin 1))
          = ((pick (X (stepOf (rowOf t a)) (sampleOf (rowOf t a))) (labelOf m c (sampleOf (rowOf t a))) (3200 * (t.val % 10) + 3200) : ℝ) : EReal) := by
  have hN : t.val < 80 := lt_of_lt_of_eq t.isLt (show cfg0.N = 80 from N_0)
  obtain ⟨cr', hmax, hsum⟩ := tile_step (X (stepOf (rowOf t a)) (sampleOf (rowOf t a))) (3200 * (t.val % 10)) (T := 3200)
    (by decide) cr (fun u => logitsBlk m c t (ix2 a u)) (fun u => blk_real h t a u)
  have e1 : newMax (logitsBlk m c t) mx (ix2 a (0 : Fin 1)) = ((cr' : ℝ) : EReal) := by
    rw [newMax_at, hmx]; exact hmax
  refine ⟨cr', e1, ?_, ?_⟩
  · rw [newSum_at, e1, hmx, hsm]; exact hsum
  · rw [newPick_at, hpk]
    refine pick_step (X (stepOf (rowOf t a)) (sampleOf (rowOf t a))) (labelOf m c (sampleOf (rowOf t a))) (3200 * (t.val % 10))
      (fun u => logitsBlk m c t (ix2 a u)) (fun u => blk_real h t a u) _ (fun u => ?_)
    rw [labels_at m c t a, coord1 t]
    exact hit_iff _ _ _ (Nat.mod_lt _ (by decide)) u.isLt (h.labels _)

/-- The seed columns at a row: the finite stand-in, 0 and 0. -/
theorem seed_max_at (a : Fin 512) : (k0_pay4 (F := Ideal)) (ix2 a (0 : Fin 1)) = Ideal.ofBits .f32 0xFF333332#32 := by
  simp only [k0_pay4, shapeCast_self]; rfl
theorem seed_sum_at (a : Fin 512) : (k0_pay5 (F := Ideal)) (ix2 a (0 : Fin 1)) = 0 := by
  simp only [k0_pay5, shapeCast_self]; exact Ideal.ofBits_zero_f32
theorem seed_pick_at (a : Fin 512) : (k0_pay6 (F := Ideal)) (ix2 a (0 : Fin 1)) = 0 := by
  simp only [k0_pay6, shapeCast_self]; exact Ideal.ofBits_zero_f32

/-- THE INVARIANT after every grid point: at row `a` the running maximum is a real `cr`, the running sum is the shifted
    exponential sum of the row's logits seen so far at `cr`, and the running masked sum is the masked sum over them. -/
theorem running (h : RealInputs m c pr X) : ∀ (n : ℕ) (hn : n < cfg0.N) (a : Fin 512),
    ∃ cr : ℝ, maxAt m c n hn (ix2 a (0 : Fin 1)) = ((cr : ℝ) : EReal)
      ∧ sumAt m c n hn (ix2 a (0 : Fin 1))
          = ((expSum (X (stepOf (rowOf ⟨n, hn⟩ a)) (sampleOf (rowOf ⟨n, hn⟩ a))) cr (3200 * (n % 10) + 3200) : ℝ) : EReal)
      ∧ pickAt m c n hn (ix2 a (0 : Fin 1))
          = ((pick (X (stepOf (rowOf ⟨n, hn⟩ a)) (sampleOf (rowOf ⟨n, hn⟩ a))) (labelOf m c (sampleOf (rowOf ⟨n, hn⟩ a)))
              (3200 * (n % 10) + 3200) : ℝ) : EReal) := by
  intro n
  induction n with
  | zero =>
    intro hn a
    obtain ⟨e1, e2, e3⟩ := at_first m c ⟨0, hn⟩ rfl (by show ¬(0 % 10 = 9); decide)
    obtain ⟨sd, hsd⟩ := seed_real
    obtain ⟨cr', s1, s2, s3⟩ := step_row h ⟨0, hn⟩ a (k0_pay4 (F := Ideal)) (k0_pay5 (F := Ideal)) (k0_pay6 (F := Ideal)) sd
      ((seed_max_at a).trans hsd)
      (by rw [seed_sum_at]; show (0 : EReal) = ((expSum _ sd (3200 * (0 % 10)) : ℝ) : EReal); rw [Nat.zero_mod, Nat.mul_zero, expSum_zero]; rfl)
      (by rw [seed_pick_at]; show (0 : EReal) = ((pick _ _ (3200 * (0 % 10)) : ℝ) : EReal); rw [Nat.zero_mod, Nat.mul_zero, pick_zero]; rfl)
    exact ⟨cr', by rw [e1]; exact s1, by rw [e2]; exact s2, by rw [e3]; exact s3⟩
  | succ n ih =>
    intro hn a
    have hN : n + 1 < 80 := lt_of_lt_of_eq hn (show cfg0.N = 80 from N_0)
    by_cases h0 : (n + 1) % 10 = 0
    · have h1 : ¬(n + 1) % 10 = 9 := by omega
      obtain ⟨e1, e2, e3⟩ := at_first m c ⟨n + 1, hn⟩ h0 h1
      obtain ⟨sd, hsd⟩ := seed_real
      obtain ⟨cr', s1, s2, s3⟩ := step_row h ⟨n + 1, hn⟩ a (k0_pay4 (F := Ideal)) (k0_pay5 (F := Ideal)) (k0_pay6 (F := Ideal)) sd
        ((seed_max_at a).trans hsd)
        (by rw [seed_sum_at]; show (0 : EReal) = ((expSum _ sd (3200 * ((n + 1) % 10)) : ℝ) : EReal); rw [h0, Nat.mul_zero, expSum_zero]; rfl)
        (by rw [seed_pick_at]; show (0 : EReal) = ((pick _ _ (3200 * ((n + 1) % 10)) : ℝ) : EReal); rw [h0, Nat.mul_zero, pick_zero]; rfl)
      exact ⟨cr', by rw [e1]; exact s1, by rw [e2]; exact s2, by rw [e3]; exact s3⟩
    · obtain ⟨cr, i1, i2, i3⟩ := ih (Nat.lt_of_succ_lt hn) a
      have hr : rowOf ⟨n, Nat.lt_of_succ_lt hn⟩ a = rowOf ⟨n + 1, hn⟩ a :=
        Fin.ext (by show 512 * (n / 10) + a.val = 512 * ((n + 1) / 10) + a.val; omega)
      have hk : 3200 * (n % 10) + 3200 = 3200 * ((n + 1) % 10) := by omega
      rw [hr, hk] at i2 i3
      have e : maxAt m c (n + 1) hn = newMax (logitsBlk m c ⟨n + 1, hn⟩) (maxAt m c n (Nat.lt_of_succ_lt hn))
          ∧ sumAt m c (n + 1) hn = newSum (logitsBlk m c ⟨n + 1, hn⟩) (maxAt m c n (Nat.lt_of_succ_lt hn)) (sumAt m c n (Nat.lt_of_succ_lt hn))
          ∧ pickAt m c (n + 1) hn = newPick (grid0.coords ⟨n + 1, hn⟩) (logitsBlk m c ⟨n + 1, hn⟩) (labelsBlk m c ⟨n + 1, hn⟩)
              (pickAt m c n (Nat.lt_of_succ_lt hn)) := by
        by_cases h1 : (n + 1) % 10 = 9
        · obtain ⟨e1, e2, e3, -⟩ := at_last m c ⟨n + 1, hn⟩ h0 h1
          exact ⟨e1, e2, e3⟩
        · exact at_middle m c ⟨n + 1, hn⟩ h0 h1
      obtain ⟨e1, e2, e3⟩ := e
      obtain ⟨cr', s1, s2, s3⟩ := step_row h ⟨n + 1, hn⟩ a (maxAt m c n (Nat.lt_of_succ_lt hn)) (sumAt m c n (Nat.lt_of_succ_lt hn))
        (pickAt m c n (Nat.lt_of_succ_lt hn)) cr i1 i2 i3
      exact ⟨cr', by rw [e1]; exact s1, by rw [e2]; exact s2, by rw [e3]; exact s3⟩

/-- WHAT IS WRITTEN at the last vocabulary tile of a row tile: at row `a`, the row's weighted cross entropy. -/
theorem written (h : RealInputs m c pr X) (t : Fin cfg0.N) (h1 : t.val % 10 = 9) (a : Fin 512) :
    outAt m c t.val t.isLt (ix2 a (0 : Fin 1))
      = ((rowLoss (pr (stepOf (rowOf t a)) (sampleOf (rowOf t a))) (X (stepOf (rowOf t a)) (sampleOf (rowOf t a)))
          (labelOf m c (sampleOf (rowOf t a))) : ℝ) : EReal) := by
  have h0 : ¬t.val % 10 = 0 := by omega
  obtain ⟨-, -, -, e4⟩ := at_last m c t h0 h1
  obtain ⟨cr, i1, i2, i3⟩ := running h t.val t.isLt a
  have hk : 3200 * (t.val % 10) + 3200 = 32000 := by omega
  rw [hk] at i2 i3
  rw [e4, out_at, i1, i2, i3, weights_at m c t a]
  refine (congrArg (· * _) (h.weights _ _)).trans ?_
  exact streamed_row _ _ _ (h.labels _) cr

end Cert.KernelIdeal.Running

end
-- ==== Proof.Rows.lean ====
/-
  The output array after the run. The output block of row tile i is written once, at the tile's last vocabulary tile,
  and holds at row a the weighted cross entropy of global row 512·i + a; the eight row tiles' blocks tile the [4096,1]
  array, so the array ends holding every row's weighted cross entropy.
-/
import proofs.«428657_j34385508171853_3_alg».proof.Proof.Running

set_option maxRecDepth 16384

noncomputable section

namespace Cert.KernelIdeal.Rows

open Cert.KernelIdeal Cert.KernelIdeal.Gen Cert.KernelIdeal.Tile Cert.KernelIdeal.Blocks Cert.KernelIdeal.Carry
open Cert.KernelIdeal.Running Cert.LogSumExp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)
variable (pr : Fin 16 → Fin 256 → ℝ) (X : Fin 16 → Fin 256 → ℕ → ℝ)

/-- Global row `r`'s weighted cross entropy. -/
def lossOf (r : Fin 4096) : EReal :=
  ((rowLoss (pr (stepOf r) (sampleOf r)) (X (stepOf r) (sampleOf r)) (labelOf m c (sampleOf r)) : ℝ) : EReal)

/-- The output array's final contents: every row's weighted cross entropy. -/
def losses : S4096x1.Idx → EReal := fun j => lossOf m c pr X ⟨(j 0).val, idx2_lt0 j⟩

/-- The output window's block index at a point: the row tile. -/
theorem idx3 : ∀ t : Fin cfg0.N, win0_3.index t (0 : Fin 2) = t.val / 10 ∧ win0_3.index t (1 : Fin 2) = 0 :=
  (by decide +kernel : ∀ t : Fin grid0.N, win0_3.index t (0 : Fin 2) = t.val / 10 ∧ win0_3.index t (1 : Fin 2) = 0)

variable {m c pr X}

/-- What a flushing point writes back is its block of `losses`. -/
theorem flushed_eq (h : RealInputs m c pr X) (t : Fin cfg0.N) (hf : (cfg0.win 3).flush t = true) :
    (dats m 0 c).flushed 3 t = ((cfg0.win 3).blk t).view.read (Elt Ideal) (losses m c pr X) := by
  have h1 : t.val % 10 = 9 := (flush0_3 t).mp hf
  obtain ⟨q0, q1⟩ := idx3 t
  show (cfg0.win 3).cut (grid0.coords t) ((dats m 0 c).after 3 t) = _
  rw [after0_3]
  funext j
  rw [View.read_apply]
  have ha : (j 0).val < 512 := (j 0).isLt
  have hz : (j 1).val < 1 := (j 1).isLt
  have ej : (j : S512x1.Idx) = ix2 (⟨(j 0).val, ha⟩ : Fin 512) (0 : Fin 1) := by
    funext d
    apply Fin.ext
    match d with
    | ⟨0, _⟩ => rfl
    | ⟨1, _⟩ => show (j 1).val = 0; omega
  show outAt m c t.val t.isLt j = losses m c pr X (((cfg0.win 3).blk t).view.emb j)
  refine (congrArg (outAt m c t.val t.isLt) ej).trans ?_
  rw [written h t h1 ⟨(j 0).val, ha⟩]
  unfold losses lossOf
  have er : rowOf t ⟨(j 0).val, ha⟩ = ⟨((((cfg0.win 3).blk t).view.emb j) 0).val, idx2_lt0 _⟩ := by
    apply Fin.ext
    show 512 * (t.val / 10) + (j 0).val = win0_3.index t (0 : Fin 2) * 512 + 1 * (j 0).val
    rw [q0]; omega
  rw [er]

/-- Every row of the output array is in the block of its row tile's last point. -/
theorem covered (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 80 := N_0
  have ht : 10 * ((i 0).val / 512) + 9 < cfg0.N := by rw [hN]; omega
  refine ⟨⟨10 * ((i 0).val / 512) + 9, ht⟩, (flush0_3 _).mpr (by show (10 * ((i 0).val / 512) + 9) % 10 = 9; omega), ?_⟩
  obtain ⟨q0, q1⟩ := idx3 ⟨10 * ((i 0).val / 512) + 9, ht⟩
  show i ∈ ((View.whole main_v5).slice (win0_3.rect ⟨10 * ((i 0).val / 512) + 9, ht⟩)).set
  rw [View.set_slice_whole, Rect.mem_set_unit]
  intro a
  match a with
  | ⟨0, _⟩ =>
    show win0_3.index ⟨10 * ((i 0).val / 512) + 9, ht⟩ (0 : Fin 2) * 512 ≤ (i 0).val
      ∧ (i 0).val < win0_3.index ⟨10 * ((i 0).val / 512) + 9, ht⟩ (0 : Fin 2) * 512 + 512
    rw [q0]; show (10 * ((i 0).val / 512) + 9) / 10 * 512 ≤ (i 0).val ∧ (i 0).val < (10 * ((i 0).val / 512) + 9) / 10 * 512 + 512
    omega
  | ⟨1, _⟩ =>
    show win0_3.index ⟨10 * ((i 0).val / 512) + 9, ht⟩ (1 : Fin 2) * 1 ≤ (i 1).val
      ∧ (i 1).val < win0_3.index ⟨10 * ((i 0).val / 512) + 9, ht⟩ (1 : Fin 2) * 1 + 1
    rw [q1]; omega

/-- THE OUTPUT ARRAY after the run holds every row's weighted cross entropy. -/
theorem final (h : RealInputs m c pr X) : (dats m 0 c).arrAt 3 cfg0.N = losses m c pr X :=
  (dats m 0 c).arrAt_eq_of_cover 3 (losses m c pr X) (flushed_eq h) covered

end Cert.KernelIdeal.Rows

end
-- ==== Proof.Domain.lean ====
/-
  What the precondition says of the inputs, decoded: every entry of the two float inputs is a real number
  (its absolute value is below +∞), and every label is a class index, 0 ≤ y < 32000 as a signed word, hence below
  32000 as a natural number.
-/
import proofs.«428657_j34385508171853_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Domain

open Idealize.ShloMosaic Cert.Pre_finite_inputs

/-- The rank-0 shape has exactly one index: there is no axis to disagree on. -/
local instance : Subsingleton S_.Idx := ⟨fun a b => funext fun d => d.elim0⟩

/-- A conjunction of two truth words is true exactly when both are. -/
theorem and_one : ∀ a b : BitVec 1, IntOp.andi a b = 1#1 ↔ a = 1#1 ∧ b = 1#1 := by decide

/-- A boolean turned into a truth word is the word 1 exactly when the boolean is true. -/
theorem ofBool_one : ∀ b : Bool, BitVec.ofBool b = 1#1 ↔ b = true := by decide

/-- The pattern 0x7F800000 (sign 0, exponent all ones, fraction 0) denotes +∞. -/
theorem ofBits_inf : (Ideal.ofBits .f32 0x7F800000#32 : EReal) = ⊤ := by
  simp [Ideal.ofBits, Ideal.ieee]

/-- An extended real whose absolute value max a (-a) is strictly below +∞ is a real number:
    for a = +∞ the maximum is +∞ itself, and for a = -∞ it is -(-∞) = +∞. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- A 32-bit word that is at least 0 and below 32000 as a signed number is below 32000 as a natural number:
    a signed value that is nonnegative is the word's own natural value. -/
theorem word_lt (w : BitVec 32) (hge : IntOp.cmpi .sge w 0#32 = 1#1) (hlt : IntOp.cmpi .slt w 32000#32 = 1#1) :
    w.toNat < 32000 := by
  have h0 : (0 : Int) ≤ w.toInt := by
    simpa [IntOp.cmpi, BitVec.sle, ofBool_one] using hge
  have h1 : w.toInt < 32000 := by
    simpa [IntOp.cmpi, BitVec.slt, ofBool_one] using hlt
  rw [BitVec.toInt_eq_toNat_cond] at h0 h1
  have hw := w.isLt
  split at h0 <;> omega

/-- The precondition, split: its value at the one index of the rank-0 shape is the conjunction of three
    all-reductions, so each of them is true, and an all-reduction that is true is true at every element. -/
theorem decode (p : FVec Ideal S16x256 .f32) (x : FVec Ideal S16x256x32000 .f32) (y : IVec S256 32)
    (h : Cert.Pre_finite_inputs.fn (F := Ideal) p x y = fun _ => 1#1) :
    (∀ i, Ideal.cmp .olt (max (p i) (-(p i))) ⊤ = 1#1) ∧
    (∀ i, Ideal.cmp .olt (max (x i) (-(x i))) ⊤ = 1#1) ∧
    (∀ i, IntOp.cmpi .sge (y i) 0#32 = 1#1 ∧ IntOp.cmpi .slt (y i) 32000#32 = 1#1) := by
  have h0 := congrFun h ValueIdx.ix0
  unfold Cert.Pre_finite_inputs.fn at h0
  dsimp only [andi] at h0
  obtain ⟨h12, h3⟩ := (and_one _ _).1 h0
  obtain ⟨h1, h2⟩ := (and_one _ _).1 h12
  refine ⟨fun i => ?_, fun i => ?_, fun i => ?_⟩
  · have e := Host.reduce_andi_all _ _ _ _ _ h1 i
    rw [← ofBits_inf]
    exact e
  · have e := Host.reduce_andi_all _ _ _ _ _ h2 i
    rw [← ofBits_inf]
    exact e
  · have e := Host.reduce_andi_all _ _ _ _ _ h3 i
    exact (and_one _ _).1 e

/-- Under the precondition every entry of the weights `p` is a real number. -/
theorem finite_p (p : FVec Ideal S16x256 .f32) (x : FVec Ideal S16x256x32000 .f32) (y : IVec S256 32)
    (h : Cert.Pre_finite_inputs.fn (F := Ideal) p x y = fun _ => 1#1) (i : S16x256.Idx) :
    ∃ r : ℝ, p i = (r : EReal) :=
  real_of_abs_lt_top _ ((decode p x y h).1 i)

/-- Under the precondition every logit is a real number. -/
theorem finite_x (p : FVec Ideal S16x256 .f32) (x : FVec Ideal S16x256x32000 .f32) (y : IVec S256 32)
    (h : Cert.Pre_finite_inputs.fn (F := Ideal) p x y = fun _ => 1#1) (i : S16x256x32000.Idx) :
    ∃ r : ℝ, x i = (r : EReal) :=
  real_of_abs_lt_top _ ((decode p x y h).2.1 i)

/-- Under the precondition every label is a class index: below 32000 as a natural number. -/
theorem label_range (p : FVec Ideal S16x256 .f32) (x : FVec Ideal S16x256x32000 .f32) (y : IVec S256 32)
    (h : Cert.Pre_finite_inputs.fn (F := Ideal) p x y = fun _ => 1#1) (i : S256.Idx) :
    (y i).toNat < 32000 :=
  word_lt _ ((decode p x y h).2.2 i).1 ((decode p x y h).2.2 i).2

end Cert.Domain

end
-- ==== Proof.Inputs.lean ====
/-
  Under the precondition the inputs are what the streaming pass and the two-pass form assume: the weights and the logits
  are real numbers (each is the coercion of its own real part) and every label is a class index.
-/
import proofs.«428657_j34385508171853_3_alg».proof.Defs
import proofs.«428657_j34385508171853_3_alg».proof.Proof.Running
import proofs.«428657_j34385508171853_3_alg».proof.Proof.Domain

set_option maxRecDepth 16384

noncomputable section

namespace Cert.KernelIdeal.Inputs

open Cert.KernelIdeal Cert.KernelIdeal.Gen Cert.KernelIdeal.Running
open Idealize.ShloMosaic Idealize.ShloMosaic.TcCoe Idealize.SL.Sem Idealize.ShloMosaic.ValueIdx

variable (m : (ℓ : Loc nD τ sig) → Buf (Elt Ideal) ℓ) (c : Dev nD)

/-- The weights' real parts. -/
def weightReal : Fin 16 → Fin 256 → ℝ := fun n b => (weightsArr m c (ix2 n b)).toReal

/-- The logits' real parts, a row as a function on the naturals (0 past the row's end). -/
def logitReal : Fin 16 → Fin 256 → ℕ → ℝ := fun n b v =>
  if hv : v < 32000 then (logitsArr m c (ix3 n b ⟨v, hv⟩)).toReal else 0

variable {m}

/-- Under the precondition the inputs are real weights, real logits and class-index labels. -/
theorem real_inputs (hpre : Cert.Pre_KernelIdeal m) : RealInputs m c (weightReal m c) (logitReal m c) where
  weights n b := by
    obtain ⟨r, hr⟩ := Cert.Domain.finite_p _ _ _ (hpre c) (ix2 n b)
    show weightsArr m c (ix2 n b) = (((weightsArr m c (ix2 n b)).toReal : ℝ) : EReal)
    rw [show weightsArr m c (ix2 n b) = (r : EReal) from hr, EReal.toReal_coe]
  logits n b v := by
    obtain ⟨r, hr⟩ := Cert.Domain.finite_x _ _ _ (hpre c) (ix3 n b v)
    show logitsArr m c (ix3 n b v) = ((logitReal m c n b v.val : ℝ) : EReal)
    unfold logitReal
    rw [dif_pos v.isLt, show logitsArr m c (ix3 n b ⟨v.val, v.isLt⟩) = (r : EReal) from hr, EReal.toReal_coe]
  labels b := Cert.Domain.label_range _ _ _ (hpre c) (ix1 b)

end Cert.KernelIdeal.Inputs

end
-- ==== Proof.Total.lean ====
/-
  The kernel program's run read at its result buffer.

  After the pipeline, the program sums its [4096, 1] output array over both axes, starting from 0, and divides by 256:
  the result is `(0 + Σ_r O r) / 256` for `O` the output array after the last grid point. The lines after the pipeline
  read that array and write only their own results, so the result buffer holds this term of the output array, and
  the three argument buffers end as they were launched. Nothing here computes with floats: the statements hold
  for every float instance.
-/
import proofs.«428657_j34385508171853_3_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Total

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- The program's result from the output array: `(0 + Σ O) / 256`. -/
def mean (O : S4096x1.Idx → Elt F .f32) : S_.Idx → Elt F .f32 :=
  Host.divf (Host.reduceAdd O (constant S_ .f32 0x00000000#32) reducesTo_S4096x1_S_d0_1 h_S_) (constant S_ .f32 0x43800000#32)

/-- What the lines after the pipeline leave in the result buffer: the sum from 0 of the output window's array after
    the last point, divided by 256 (the lines' operations applied in order; the output window's array is the one
    buffer of theirs the pipeline wrote). -/
theorem tail_v7 (c : Dev nD) :
    Pipeline.afterTail₀ cfgs (dats m) 0 (V0 m) [hostOps1] c main_v7 = mean ((dats m 0 c).arrAt 3 cfg0.N) := by
  unfold Pipeline.afterTail₀
  show StableHlo.after hostOps1 _ (Proc.devRef .tc main_v7) = _
  after_results
  exact congrArg mean (Pipeline.withArrays_arr spec0 launch0.win.arr_inj c _ _ 3)

/-- Every run of the program terminates with the result buffer at `mean` of the output array after the last grid
    point, and the three arguments as launched. -/
theorem run : θ_run defs (onTc (τ := τ) (main (F := F))) ⟨m, fun _ => 0, ρ⟩ fun r => ∀ c : Dev nD,
      r.2.mem ((c.tc : Thread nD τ).loc main_v7) = mean ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Total

end
-- ==== Proof.RefRun.lean ====
/-
  The reference program's run, read back stage by stage. The reference's @main is a straight line of 46 host operations
  (those of log_softmax and of take_along_axis stand at their call sites): every weakly fair execution terminates with each
  buffer holding what the operations, run in order, leave there. The line is cut into four stretches: the 15 operations of
  log_softmax; the two broadcasts of the labels; the 22 operations of take_along_axis; the last seven (reshape, negation,
  product with the weights, sum, division by the count). For each stretch, from ANY contents W: a buffer that later stretches
  read holds its stage value `val_…` of the arguments, given that W holds the earlier stages the stretch reads, and a buffer
  the stretch does not write is unchanged. Chained, the result buffer ends at `val_main_v8` of the three arguments, and the
  three arguments are as launched.
-/
import proofs.«428657_j34385508171853_3_alg».proof.Proof.Gen.ReferenceIdeal
import proofs.«428657_j34385508171853_3_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 46 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S16x256x32000, .f32⟩) main_arg1) (TRef.of (T := ⟨S_, .f32⟩) main_call0_cst) (TRef.of (T := ⟨S16x256, .f32⟩) main_call0_v0) (fun x v => Host.reduce FloatOps.maximumf x v reducesTo_S16x256x32000_S16x256_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S16x256, .f32⟩) main_call0_v1) (broadcastInDim S16x256 ![] bcast_S_S16x256),
    TRef.binary (TRef.of (T := ⟨S16x256, .f32⟩) main_call0_v1) (TRef.of (T := ⟨S16x256, .f32⟩) main_call0_v0) (TRef.of (T := ⟨S16x256, .f32⟩) main_call0_v2) maximumf,
    TRef.unary (TRef.of (T := ⟨S16x256, .f32⟩) main_call0_v2) (TRef.of (T := ⟨S16x256x1, .f32⟩) main_call0_v3) (broadcastInDim S16x256x1 ![0, 1] bcast_S16x256_S16x256x1_0_1),
    TRef.unary (TRef.of (T := ⟨S16x256x1, .f32⟩) main_call0_v3) (TRef.of (T := ⟨S16x256x32000, .f32⟩) main_call0_v4) (broadcastInDim S16x256x32000 ![0, 1, 2] bcast_S16x256x1_S16x256x32000_0_1_2),
    TRef.binary (TRef.of (T := ⟨S16x256x32000, .f32⟩) main_arg1) (TRef.of (T := ⟨S16x256x32000, .f32⟩) main_call0_v4) (TRef.of (T := ⟨S16x256x32000, .f32⟩) main_call0_v5) subf,
    TRef.unary (TRef.of (T := ⟨S16x256x32000, .f32⟩) main_call0_v5) (TRef.of (T := ⟨S16x256x32000, .f32⟩) main_call0_v6) Host.exp,
    TRef.nullary (TRef.of (T := ⟨S_, .f32⟩) main_call0_cst_1) (constant S_ .f32 0x00000000#32),
    TRef.binary (TRef.of (T := ⟨S16x256x32000, .f32⟩) main_call0_v6) (TRef.of (T := ⟨S_, .f32⟩) main_call0_cst_1) (TRef.of (T := ⟨S16x256, .f32⟩) main_call0_v7) (fun x v => Host.reduceAdd x v reducesTo_S16x256x32000_S16x256_d2 h_S_),
    TRef.unary (TRef.of (T := ⟨S16x256, .f32⟩) main_call0_v7) (TRef.of (T := ⟨S16x256x1, .f32⟩) main_call0_v8) (broadcastInDim S16x256x1 ![0, 1] bcast_S16x256_S16x256x1_0_1),
    TRef.unary (TRef.of (T := ⟨S16x256x1, .f32⟩) main_call0_v8) (TRef.of (T := ⟨S16x256x1, .f32⟩) main_call0_v9) Host.log,
    TRef.unary (TRef.of (T := ⟨S16x256x1, .f32⟩) main_call0_v9) (TRef.of (T := ⟨S16x256x32000, .f32⟩) main_call0_v10) (broadcastInDim S16x256x32000 ![0, 1, 2] bcast_S16x256x1_S16x256x32000_0_1_2),
    TRef.binary (TRef.of (T := ⟨S16x256x32000, .f32⟩) main_call0_v5) (TRef.of (T := ⟨S16x256x32000, .f32⟩) main_call0_v10) (TRef.of (T := ⟨S16x256x32000, .f32⟩) main_v0) subf,
    unary main_arg2 main_v1 (broadcastInDim S1x256x1 ![1] bcast_S256_S1x256x1_1 : (⟨S256, .i32⟩ : BufTy).Contents (Elt F) → (⟨S1x256x1, .i32⟩ : BufTy).Contents (Elt F)),
    unary main_v1 main_v2 (broadcastInDim S16x256x1 ![0, 1, 2] bcast_S1x256x1_S16x256x1_0_1_2 : (⟨S1x256x1, .i32⟩ : BufTy).Contents (Elt F) → (⟨S16x256x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x256x1, .i32⟩) main_call1_v0) (broadcastInDim S16x256x1 ![] bcast_S_S16x256x1),
    TRef.binary (TRef.of (T := ⟨S16x256x1, .i32⟩) main_v2) (TRef.of (T := ⟨S16x256x1, .i32⟩) main_call1_v0) (TRef.of (T := ⟨S16x256x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S16x256x1, .i32⟩) main_call1_v2) (broadcastInDim S16x256x1 ![] bcast_S_S16x256x1),
    TRef.binary (TRef.of (T := ⟨S16x256x1, .i32⟩) main_v2) (TRef.of (T := ⟨S16x256x1, .i32⟩) main_call1_v2) (TRef.of (T := ⟨S16x256x1, .i32⟩) main_call1_v3) addi,
    TRef.ternary (TRef.of (T := ⟨S16x256x1, .i1⟩) main_call1_v1) (TRef.of (T := ⟨S16x256x1, .i32⟩) main_call1_v3) (TRef.of (T := ⟨S16x256x1, .i32⟩) main_v2) (TRef.of (T := ⟨S16x256x1, .i32⟩) main_call1_v4) select,
    TRef.reshape (TRef.of (T := ⟨S16x256x1, .i32⟩) main_call1_v4) (TRef.of (T := ⟨S16x256x1x1, .i32⟩) main_call1_v5) rfl shapeCasts_S16x256x1_S16x256x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S16x256x1x1, .i32⟩) main_call1_v6) (broadcastInDim S16x256x1x1 ![] bcast_S_S16x256x1x1),
    TRef.binary (TRef.of (T := ⟨S16x256x1x1, .i32⟩) main_call1_v5) (TRef.of (T := ⟨S16x256x1x1, .i32⟩) main_call1_v6) (TRef.of (T := ⟨S16x256x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x256x1x1, .i32⟩) main_call1_v9) (broadcastInDim S16x256x1x1 ![0, 1, 2, 3] bcast_S1x1x1x1_S16x256x1x1_0_1_2_3),
    TRef.binary (TRef.of (T := ⟨S16x256x1x1, .i32⟩) main_call1_v5) (TRef.of (T := ⟨S16x256x1x1, .i32⟩) main_call1_v9) (TRef.of (T := ⟨S16x256x1x1, .i1⟩) main_call1_v10) (cmpi .sle),
    TRef.binary (TRef.of (T := ⟨S16x256x1x1, .i1⟩) main_call1_v7) (TRef.of (T := ⟨S16x256x1x1, .i1⟩) main_call1_v10) (TRef.of (T := ⟨S16x256x1x1, .i1⟩) main_call1_v11) andi,
    TRef.nullary (TRef.of (T := ⟨S_, .i1⟩) main_call1_c_3) (constantI S_ 1 1#1),
    TRef.binary (TRef.of (T := ⟨S16x256x1x1, .i1⟩) main_call1_v11) (TRef.of (T := ⟨S_, .i1⟩) main_call1_c_3) (TRef.of (T := ⟨S16x256x1, .i1⟩) main_call1_v12) (fun x v => Host.reduce IntOp.andi x v reducesTo_S16x256x1x1_S16x256x1_d3 h_S_),
    TRef.binary (TRef.of (T := ⟨S16x256x32000, .f32⟩) main_v0) (TRef.of (T := ⟨S16x256x1x1, .i32⟩) main_call1_v5) (TRef.of (T := ⟨S16x256x1, .f32⟩) main_call1_v13) (fun x i => Host.gather gather_S16x256x32000_S16x256x1x1_S16x256x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S16x256x1, .f32⟩) main_call1_v14) (broadcastInDim S16x256x1 ![] bcast_S_S16x256x1),
    TRef.ternary (TRef.of (T := ⟨S16x256x1, .i1⟩) main_call1_v12) (TRef.of (T := ⟨S16x256x1, .f32⟩) main_call1_v13) (TRef.of (T := ⟨S16x256x1, .f32⟩) main_call1_v14) (TRef.of (T := ⟨S16x256x1, .f32⟩) main_v3) select,
    reshape main_v3 main_v4 rfl shapeCasts_S16x256x1_S16x256,
    unary main_v4 main_v5 (Host.negf : (⟨S16x256, .f32⟩ : BufTy).Contents (Elt F) → (⟨S16x256, .f32⟩ : BufTy).Contents (Elt F)),
    binary main_arg0 main_v5 main_v6 (mulf : (⟨S16x256, .f32⟩ : BufTy).Contents (Elt F) → (⟨S16x256, .f32⟩ : BufTy).Contents (Elt F) → (⟨S16x256, .f32⟩ : BufTy).Contents (Elt F)),
    nullary main_cst (constant S_ .f32 0x00000000#32),
    binary main_v6 main_cst main_v7 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    nullary main_cst_0 (constant S_ .f32 0x43800000#32),
    binary main_v7 main_cst_0 main_v8 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub ..⟩

/-! ## Reading a valuation at a typed reference

A called function's operations are spelt over typed references, and move their function's arguments and value along the
equation between the reference's own buffer type and the carried one. `rd W x` is the valuation `W` read at the typed
reference `x`, at the carried type; an operation's result read this way is its function of its operands read this way,
with no transport left in sight. -/

section TypedReads

variable {τ : Topo} {sig : RefSig} {Val : EltTy → Type} {T Tx Ta Tb Tc Ty : BufTy}

/-- The contents a valuation holds at a typed reference, at the type the reference carries. -/
def rd (W : Valuation τ sig Val) (x : TRef sig T) : T.Contents Val :=
  x.ofBuf (W (Proc.devRef .tc x.ref))

/-- Moving a value to the buffer's own type and back is the identity. -/
theorem ofBuf_toBuf (x : TRef sig T) (v : T.Contents Val) : x.ofBuf (x.toBuf v) = v := by
  obtain ⟨r, h, _, _⟩ := x
  subst h
  rfl

/-- A buffer an operation does not write reads as before. -/
theorem rd_of_not_mem (op : HloOp τ sig Val) (W : Valuation τ sig Val) (x : TRef sig T)
    (h : (Proc.devRef .tc x.ref : DevRef τ sig) ∉ op.writes) : rd (op.result W) x = rd W x := by
  unfold rd
  rw [op.result_of_not_mem W h]

theorem rd_nullary (y : TRef sig Ty) (v : Ty.Contents Val) (W : Valuation τ sig Val) :
    rd ((TRef.nullary y v : HloOp τ sig Val).result W) y = v :=
  (congrArg y.ofBuf (nullary_result y.ref (y.toBuf v) y.dev W)).trans (ofBuf_toBuf y v)

theorem rd_unary (x : TRef sig Tx) (y : TRef sig Ty) (f : Tx.Contents Val → Ty.Contents Val) (W : Valuation τ sig Val) :
    rd ((TRef.unary x y f : HloOp τ sig Val).result W) y = f (rd W x) :=
  (congrArg y.ofBuf (unary_result x.ref y.ref _ x.dev y.dev W)).trans (ofBuf_toBuf y _)

theorem rd_binary (a : TRef sig Ta) (b : TRef sig Tb) (y : TRef sig Ty)
    (f : Ta.Contents Val → Tb.Contents Val → Ty.Contents Val) (W : Valuation τ sig Val) :
    rd ((TRef.binary a b y f : HloOp τ sig Val).result W) y = f (rd W a) (rd W b) :=
  (congrArg y.ofBuf (binary_result a.ref b.ref y.ref _ a.dev b.dev y.dev W)).trans (ofBuf_toBuf y _)

theorem rd_ternary (c : TRef sig Tc) (a : TRef sig Ta) (b : TRef sig Tb) (y : TRef sig Ty)
    (f : Tc.Contents Val → Ta.Contents Val → Tb.Contents Val → Ty.Contents Val) (W : Valuation τ sig Val) :
    rd ((TRef.ternary c a b y f : HloOp τ sig Val).result W) y = f (rd W c) (rd W a) (rd W b) :=
  (congrArg y.ofBuf (ternary_result c.ref a.ref b.ref y.ref _ c.dev a.dev b.dev y.dev W)).trans (ofBuf_toBuf y _)

theorem rd_reshape (x : TRef sig Tx) (y : TRef sig Ty) (he : Tx.elt = Ty.elt) (hn : Tx.shape.ShapeCasts Ty.shape)
    (W : Valuation τ sig Val) :
    rd ((TRef.reshape x y he hn : HloOp τ sig Val).result W) y = fun i => he ▸ shapeCast Ty.shape (rd W x) hn i := by
  obtain ⟨rx, hx, _, _⟩ := x
  obtain ⟨ry, hy, _, _⟩ := y
  subst hx
  subst hy
  unfold rd
  rw [reshape_result]
  rfl

theorem rd_nullary_ne (y : TRef sig Ty) (v : Ty.Contents Val) (W : Valuation τ sig Val) (x : TRef sig T) (h : x.ref ≠ y.ref) :
    rd ((TRef.nullary y v : HloOp τ sig Val).result W) x = rd W x :=
  congrArg x.ofBuf (nullary_result_ne y.ref _ y.dev W h)

theorem rd_unary_ne (a : TRef sig Ta) (y : TRef sig Ty) (f : Ta.Contents Val → Ty.Contents Val) (W : Valuation τ sig Val)
    (x : TRef sig T) (h : x.ref ≠ y.ref) : rd ((TRef.unary a y f : HloOp τ sig Val).result W) x = rd W x :=
  congrArg x.ofBuf (unary_result_ne a.ref y.ref _ a.dev y.dev W h)

theorem rd_binary_ne (a : TRef sig Ta) (b : TRef sig Tb) (y : TRef sig Ty)
    (f : Ta.Contents Val → Tb.Contents Val → Ty.Contents Val) (W : Valuation τ sig Val) (x : TRef sig T) (h : x.ref ≠ y.ref) :
    rd ((TRef.binary a b y f : HloOp τ sig Val).result W) x = rd W x :=
  congrArg x.ofBuf (binary_result_ne a.ref b.ref y.ref _ a.dev b.dev y.dev W h)

theorem rd_ternary_ne (c : TRef sig Tc) (a : TRef sig Ta) (b : TRef sig Tb) (y : TRef sig Ty)
    (f : Tc.Contents Val → Ta.Contents Val → Tb.Contents Val → Ty.Contents Val) (W : Valuation τ sig Val)
    (x : TRef sig T) (h : x.ref ≠ y.ref) : rd ((TRef.ternary c a b y f : HloOp τ sig Val).result W) x = rd W x :=
  congrArg x.ofBuf (ternary_result_ne a.ref b.ref c.ref y.ref _ c.dev a.dev b.dev y.dev W h)

theorem rd_reshape_ne (a : TRef sig Ta) (y : TRef sig Ty) (he : Ta.elt = Ty.elt) (hn : Ta.shape.ShapeCasts Ty.shape)
    (W : Valuation τ sig Val) (x : TRef sig T) (h : x.ref ≠ y.ref) :
    rd ((TRef.reshape a y he hn : HloOp τ sig Val).result W) x = rd W x :=
  congrArg x.ofBuf (reshape_result_ne a.ref y.ref _ _ a.dev y.dev W h)

end TypedReads

/-! The same facts in the form one simplification pass uses: the valuation argument is not indexed, so that a fact is found
whatever operation stands there, and the references are told apart by computation. -/

section TypedReadsSimp

variable {τ : Topo} {sig : RefSig} {Val : EltTy → Type} {T Tx Ta Tb Tc Ty : BufTy}

theorem rd_nullary' (y : TRef sig Ty) (v : Ty.Contents Val) (W : Valuation τ sig Val) :
    rd (no_index ((TRef.nullary y v : HloOp τ sig Val).result W)) y = v := rd_nullary y v W
theorem rd_unary' (x : TRef sig Tx) (y : TRef sig Ty) (f : Tx.Contents Val → Ty.Contents Val) (W : Valuation τ sig Val) :
    rd (no_index ((TRef.unary x y f : HloOp τ sig Val).result W)) y = f (rd W x) := rd_unary x y f W
theorem rd_binary' (a : TRef sig Ta) (b : TRef sig Tb) (y : TRef sig Ty)
    (f : Ta.Contents Val → Tb.Contents Val → Ty.Contents Val) (W : Valuation τ sig Val) :
    rd (no_index ((TRef.binary a b y f : HloOp τ sig Val).result W)) y = f (rd W a) (rd W b) := rd_binary a b y f W
theorem rd_ternary' (c : TRef sig Tc) (a : TRef sig Ta) (b : TRef sig Tb) (y : TRef sig Ty)
    (f : Tc.Contents Val → Ta.Contents Val → Tb.Contents Val → Ty.Contents Val) (W : Valuation τ sig Val) :
    rd (no_index ((TRef.ternary c a b y f : HloOp τ sig Val).result W)) y = f (rd W c) (rd W a) (rd W b) := rd_ternary c a b y f W
theorem rd_reshape' (x : TRef sig Tx) (y : TRef sig Ty) (he : Tx.elt = Ty.elt) (hn : Tx.shape.ShapeCasts Ty.shape)
    (W : Valuation τ sig Val) :
    rd (no_index ((TRef.reshape x y he hn : HloOp τ sig Val).result W)) y = fun i => he ▸ shapeCast Ty.shape (rd W x) hn i :=
  rd_reshape x y he hn W
theorem rd_nullary_ne' (y : TRef sig Ty) (v : Ty.Contents Val) (W : Valuation τ sig Val) (x : TRef sig T) (h : x.ref ≠ y.ref) :
    rd (no_index ((TRef.nullary y v : HloOp τ sig Val).result W)) x = rd W x := rd_nullary_ne y v W x h
theorem rd_unary_ne' (a : TRef sig Ta) (y : TRef sig Ty) (f : Ta.Contents Val → Ty.Contents Val) (W : Valuation τ sig Val)
    (x : TRef sig T) (h : x.ref ≠ y.ref) : rd (no_index ((TRef.unary a y f : HloOp τ sig Val).result W)) x = rd W x :=
  rd_unary_ne a y f W x h
theorem rd_binary_ne' (a : TRef sig Ta) (b : TRef sig Tb) (y : TRef sig Ty)
    (f : Ta.Contents Val → Tb.Contents Val → Ty.Contents Val) (W : Valuation τ sig Val) (x : TRef sig T) (h : x.ref ≠ y.ref) :
    rd (no_index ((TRef.binary a b y f : HloOp τ sig Val).result W)) x = rd W x := rd_binary_ne a b y f W x h
theorem rd_ternary_ne' (c : TRef sig Tc) (a : TRef sig Ta) (b : TRef sig Tb) (y : TRef sig Ty)
    (f : Tc.Contents Val → Ta.Contents Val → Tb.Contents Val → Ty.Contents Val) (W : Valuation τ sig Val)
    (x : TRef sig T) (h : x.ref ≠ y.ref) : rd (no_index ((TRef.ternary c a b y f : HloOp τ sig Val).result W)) x = rd W x :=
  rd_ternary_ne c a b y f W x h
theorem rd_reshape_ne' (a : TRef sig Ta) (y : TRef sig Ty) (he : Ta.elt = Ty.elt) (hn : Ta.shape.ShapeCasts Ty.shape)
    (W : Valuation τ sig Val) (x : TRef sig T) (h : x.ref ≠ y.ref) :
    rd (no_index ((TRef.reshape a y he hn : HloOp τ sig Val).result W)) x = rd W x := rd_reshape_ne a y he hn W x h

end TypedReadsSimp

/-- Reads a line of typed operations off a valuation: unfolds the fold, then rewrites each operation's result read at its own
    reference to its function of the operands' reads, and read at any other reference to what was there. -/
macro "typed_reads" : tactic =>
  `(tactic| (simp (disch := decide) only [after_cons, after_nil,
      rd_nullary', rd_unary', rd_binary', rd_ternary', rd_reshape',
      rd_nullary_ne', rd_unary_ne', rd_binary_ne', rd_ternary_ne', rd_reshape_ne']))

/-! ## The four stretches -/

/-- log_softmax: the row maximum, the shifted logits, the logarithm of the row sum of their exponentials, the difference. -/
abbrev opsA : List (HloOp τ sig (Elt F)) :=
  [ TRef.nullary (TRef.of (T := ⟨S_, .f32⟩) main_call0_cst) (constant S_ .f32 0xFF800000#32),
    TRef.binary (TRef.of (T := ⟨S16x256x32000, .f32⟩) main_arg1) (TRef.of (T := ⟨S_, .f32⟩) main_call0_cst) (TRef.of (T := ⟨S16x256, .f32⟩) main_call0_v0) (fun x v => Host.reduce FloatOps.maximumf x v reducesTo_S16x256x32000_S16x256_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S16x256, .f32⟩) main_call0_v1) (broadcastInDim S16x256 ![] bcast_S_S16x256),
    TRef.binary (TRef.of (T := ⟨S16x256, .f32⟩) main_call0_v1) (TRef.of (T := ⟨S16x256, .f32⟩) main_call0_v0) (TRef.of (T := ⟨S16x256, .f32⟩) main_call0_v2) maximumf,
    TRef.unary (TRef.of (T := ⟨S16x256, .f32⟩) main_call0_v2) (TRef.of (T := ⟨S16x256x1, .f32⟩) main_call0_v3) (broadcastInDim S16x256x1 ![0, 1] bcast_S16x256_S16x256x1_0_1),
    TRef.unary (TRef.of (T := ⟨S16x256x1, .f32⟩) main_call0_v3) (TRef.of (T := ⟨S16x256x32000, .f32⟩) main_call0_v4) (broadcastInDim S16x256x32000 ![0, 1, 2] bcast_S16x256x1_S16x256x32000_0_1_2),
    TRef.binary (TRef.of (T := ⟨S16x256x32000, .f32⟩) main_arg1) (TRef.of (T := ⟨S16x256x32000, .f32⟩) main_call0_v4) (TRef.of (T := ⟨S16x256x32000, .f32⟩) main_call0_v5) subf,
    TRef.unary (TRef.of (T := ⟨S16x256x32000, .f32⟩) main_call0_v5) (TRef.of (T := ⟨S16x256x32000, .f32⟩) main_call0_v6) Host.exp,
    TRef.nullary (TRef.of (T := ⟨S_, .f32⟩) main_call0_cst_1) (constant S_ .f32 0x00000000#32),
    TRef.binary (TRef.of (T := ⟨S16x256x32000, .f32⟩) main_call0_v6) (TRef.of (T := ⟨S_, .f32⟩) main_call0_cst_1) (TRef.of (T := ⟨S16x256, .f32⟩) main_call0_v7) (fun x v => Host.reduceAdd x v reducesTo_S16x256x32000_S16x256_d2 h_S_),
    TRef.unary (TRef.of (T := ⟨S16x256, .f32⟩) main_call0_v7) (TRef.of (T := ⟨S16x256x1, .f32⟩) main_call0_v8) (broadcastInDim S16x256x1 ![0, 1] bcast_S16x256_S16x256x1_0_1),
    TRef.unary (TRef.of (T := ⟨S16x256x1, .f32⟩) main_call0_v8) (TRef.of (T := ⟨S16x256x1, .f32⟩) main_call0_v9) Host.log,
    TRef.unary (TRef.of (T := ⟨S16x256x1, .f32⟩) main_call0_v9) (TRef.of (T := ⟨S16x256x32000, .f32⟩) main_call0_v10) (broadcastInDim S16x256x32000 ![0, 1, 2] bcast_S16x256x1_S16x256x32000_0_1_2),
    TRef.binary (TRef.of (T := ⟨S16x256x32000, .f32⟩) main_call0_v5) (TRef.of (T := ⟨S16x256x32000, .f32⟩) main_call0_v10) (TRef.of (T := ⟨S16x256x32000, .f32⟩) main_v0) subf ]

/-- The labels broadcast to one column per row. -/
abbrev opsB0 : List (HloOp τ sig (Elt F)) :=
  [ unary main_arg2 main_v1 (broadcastInDim S1x256x1 ![1] bcast_S256_S1x256x1_1 : (⟨S256, .i32⟩ : BufTy).Contents (Elt F) → (⟨S1x256x1, .i32⟩ : BufTy).Contents (Elt F)),
    unary main_v1 main_v2 (broadcastInDim S16x256x1 ![0, 1, 2] bcast_S1x256x1_S16x256x1_0_1_2 : (⟨S1x256x1, .i32⟩ : BufTy).Contents (Elt F) → (⟨S16x256x1, .i32⟩ : BufTy).Contents (Elt F)) ]

/-- take_along_axis: a negative label wraps, the wrapped label is checked against the class range, the log-probability at it is gathered, and a label out of range reads the fill value. -/
abbrev opsBC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16x256x1, .i32⟩) main_call1_v0) (broadcastInDim S16x256x1 ![] bcast_S_S16x256x1),
    TRef.binary (TRef.of (T := ⟨S16x256x1, .i32⟩) main_v2) (TRef.of (T := ⟨S16x256x1, .i32⟩) main_call1_v0) (TRef.of (T := ⟨S16x256x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S16x256x1, .i32⟩) main_call1_v2) (broadcastInDim S16x256x1 ![] bcast_S_S16x256x1),
    TRef.binary (TRef.of (T := ⟨S16x256x1, .i32⟩) main_v2) (TRef.of (T := ⟨S16x256x1, .i32⟩) main_call1_v2) (TRef.of (T := ⟨S16x256x1, .i32⟩) main_call1_v3) addi,
    TRef.ternary (TRef.of (T := ⟨S16x256x1, .i1⟩) main_call1_v1) (TRef.of (T := ⟨S16x256x1, .i32⟩) main_call1_v3) (TRef.of (T := ⟨S16x256x1, .i32⟩) main_v2) (TRef.of (T := ⟨S16x256x1, .i32⟩) main_call1_v4) select,
    TRef.reshape (TRef.of (T := ⟨S16x256x1, .i32⟩) main_call1_v4) (TRef.of (T := ⟨S16x256x1x1, .i32⟩) main_call1_v5) rfl shapeCasts_S16x256x1_S16x256x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S16x256x1x1, .i32⟩) main_call1_v6) (broadcastInDim S16x256x1x1 ![] bcast_S_S16x256x1x1),
    TRef.binary (TRef.of (T := ⟨S16x256x1x1, .i32⟩) main_call1_v5) (TRef.of (T := ⟨S16x256x1x1, .i32⟩) main_call1_v6) (TRef.of (T := ⟨S16x256x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x256x1x1, .i32⟩) main_call1_v9) (broadcastInDim S16x256x1x1 ![0, 1, 2, 3] bcast_S1x1x1x1_S16x256x1x1_0_1_2_3),
    TRef.binary (TRef.of (T := ⟨S16x256x1x1, .i32⟩) main_call1_v5) (TRef.of (T := ⟨S16x256x1x1, .i32⟩) main_call1_v9) (TRef.of (T := ⟨S16x256x1x1, .i1⟩) main_call1_v10) (cmpi .sle),
    TRef.binary (TRef.of (T := ⟨S16x256x1x1, .i1⟩) main_call1_v7) (TRef.of (T := ⟨S16x256x1x1, .i1⟩) main_call1_v10) (TRef.of (T := ⟨S16x256x1x1, .i1⟩) main_call1_v11) andi,
    TRef.nullary (TRef.of (T := ⟨S_, .i1⟩) main_call1_c_3) (constantI S_ 1 1#1),
    TRef.binary (TRef.of (T := ⟨S16x256x1x1, .i1⟩) main_call1_v11) (TRef.of (T := ⟨S_, .i1⟩) main_call1_c_3) (TRef.of (T := ⟨S16x256x1, .i1⟩) main_call1_v12) (fun x v => Host.reduce IntOp.andi x v reducesTo_S16x256x1x1_S16x256x1_d3 h_S_),
    TRef.binary (TRef.of (T := ⟨S16x256x32000, .f32⟩) main_v0) (TRef.of (T := ⟨S16x256x1x1, .i32⟩) main_call1_v5) (TRef.of (T := ⟨S16x256x1, .f32⟩) main_call1_v13) (fun x i => Host.gather gather_S16x256x32000_S16x256x1x1_S16x256x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S16x256x1, .f32⟩) main_call1_v14) (broadcastInDim S16x256x1 ![] bcast_S_S16x256x1),
    TRef.ternary (TRef.of (T := ⟨S16x256x1, .i1⟩) main_call1_v12) (TRef.of (T := ⟨S16x256x1, .f32⟩) main_call1_v13) (TRef.of (T := ⟨S16x256x1, .f32⟩) main_call1_v14) (TRef.of (T := ⟨S16x256x1, .f32⟩) main_v3) select ]

/-- The gathered column as a matrix, negated, weighted, summed over all entries, divided by the count. -/
abbrev opsD : List (HloOp τ sig (Elt F)) :=
  [ reshape main_v3 main_v4 rfl shapeCasts_S16x256x1_S16x256,
    unary main_v4 main_v5 (Host.negf : (⟨S16x256, .f32⟩ : BufTy).Contents (Elt F) → (⟨S16x256, .f32⟩ : BufTy).Contents (Elt F)),
    binary main_arg0 main_v5 main_v6 (mulf : (⟨S16x256, .f32⟩ : BufTy).Contents (Elt F) → (⟨S16x256, .f32⟩ : BufTy).Contents (Elt F) → (⟨S16x256, .f32⟩ : BufTy).Contents (Elt F)),
    nullary main_cst (constant S_ .f32 0x00000000#32),
    binary main_v6 main_cst main_v7 ((fun x v => Host.reduceAdd x v reducesTo_S16x256_S_d0_1 h_S_) : (⟨S16x256, .f32⟩ : BufTy).Contents (Elt F) → (⟨S_, .f32⟩ : BufTy).Contents (Elt F) → (⟨S_, .f32⟩ : BufTy).Contents (Elt F)),
    nullary main_cst_0 (constant S_ .f32 0x43800000#32),
    binary main_v7 main_cst_0 main_v8 (Host.divf : (⟨S_, .f32⟩ : BufTy).Contents (Elt F) → (⟨S_, .f32⟩ : BufTy).Contents (Elt F) → (⟨S_, .f32⟩ : BufTy).Contents (Elt F)) ]

set_option maxRecDepth 8192 in
/-- The line is its four stretches in a row. -/
theorem ops_cut : (ops : List (HloOp τ sig (Elt F))) = opsA ++ (opsB0 ++ (opsBC ++ opsD)) := rfl

/-- The buffers the stretches hand to one another, at the types of the values they hold. -/
abbrev t_arg0 : TRef sig ⟨S16x256, .f32⟩ := TRef.of main_arg0
abbrev t_arg1 : TRef sig ⟨S16x256x32000, .f32⟩ := TRef.of main_arg1
abbrev t_arg2 : TRef sig ⟨S256, .i32⟩ := TRef.of main_arg2
abbrev t_v0 : TRef sig ⟨S16x256x32000, .f32⟩ := TRef.of main_v0
abbrev t_v2 : TRef sig ⟨S16x256x1, .i32⟩ := TRef.of main_v2
abbrev t_v3 : TRef sig ⟨S16x256x1, .f32⟩ := TRef.of main_v3

set_option maxRecDepth 8192 in
set_option maxHeartbeats 2000000 in
/-- After log_softmax's operations, from any contents, its result buffer holds the log-probabilities of the logits found. -/
theorem stretchA (W : Valuation τ sig (Elt F)) :
    rd (after opsA W) t_v0 = val_main_v0 (F := F) (rd W t_arg1) := by
  typed_reads
  rfl

set_option maxRecDepth 8192 in
set_option maxHeartbeats 2000000 in
/-- log_softmax's operations write neither the weights nor the labels. -/
theorem stretchA_keeps (W : Valuation τ sig (Elt F)) :
    rd (after opsA W) t_arg0 = rd W t_arg0 ∧ rd (after opsA W) t_arg2 = rd W t_arg2 := by
  constructor <;> typed_reads

set_option maxRecDepth 8192 in
/-- After the two broadcasts, from any contents, the label column holds the labels found, one per row. -/
theorem stretchB0 (W : Valuation τ sig (Elt F)) :
    after opsB0 W (Proc.devRef .tc main_v2) = val_main_v2 (F := F) (W (Proc.devRef .tc main_arg2)) := by
  after_results_simp
  rfl

set_option maxRecDepth 8192 in
/-- The two broadcasts write neither the weights nor the log-probabilities. -/
theorem stretchB0_keeps (W : Valuation τ sig (Elt F)) :
    after opsB0 W (Proc.devRef .tc main_arg0) = W (Proc.devRef .tc main_arg0)
      ∧ after opsB0 W (Proc.devRef .tc main_v0) = W (Proc.devRef .tc main_v0) := by
  constructor <;> after_results_simp

set_option maxRecDepth 8192 in
set_option maxHeartbeats 2000000 in
/-- After take_along_axis's operations, from contents holding the log-probabilities of logits `x1` and the column of labels
    `x2`, its result buffer holds the gathered column of `x1` and `x2`. -/
theorem stretchBC (W : Valuation τ sig (Elt F)) (x1 : (⟨S16x256x32000, .f32⟩ : BufTy).Contents (Elt F))
    (x2 : (⟨S256, .i32⟩ : BufTy).Contents (Elt F))
    (h0 : rd W t_v0 = val_main_v0 (F := F) x1) (h2 : rd W t_v2 = val_main_v2 (F := F) x2) :
    rd (after opsBC W) t_v3 = val_main_v3 (F := F) x1 x2 := by
  typed_reads
  rw [h0, h2]
  rfl

set_option maxRecDepth 8192 in
set_option maxHeartbeats 2000000 in
/-- take_along_axis's operations do not write the weights. -/
theorem stretchBC_keeps (W : Valuation τ sig (Elt F)) : rd (after opsBC W) t_arg0 = rd W t_arg0 := by
  typed_reads

set_option maxRecDepth 8192 in
/-- After the last seven operations, from contents holding the weights `x0` and the gathered column of `x1` and `x2`, the
    result buffer holds the weighted mean of the negated column. -/
theorem stretchD (W : Valuation τ sig (Elt F)) (x0 : (⟨S16x256, .f32⟩ : BufTy).Contents (Elt F))
    (x1 : (⟨S16x256x32000, .f32⟩ : BufTy).Contents (Elt F)) (x2 : (⟨S256, .i32⟩ : BufTy).Contents (Elt F))
    (h3 : W (Proc.devRef .tc main_v3) = val_main_v3 (F := F) x1 x2) (h0 : W (Proc.devRef .tc main_arg0) = x0) :
    after opsD W (Proc.devRef .tc main_v8) = val_main_v8 (F := F) x0 x1 x2 := by
  after_results_simp
  rw [h3, h0]
  rfl

/-! ## The line -/

/-- After the whole line, from any contents, the result buffer holds the last stage of the three arguments found. -/
theorem value (V : Valuation τ sig (Elt F)) :
    after ops V (Proc.devRef .tc main_v8)
      = val_main_v8 (F := F) (V (Proc.devRef .tc main_arg0)) (V (Proc.devRef .tc main_arg1)) (V (Proc.devRef .tc main_arg2)) := by
  rw [ops_cut, after_append, after_append, after_append]
  -- log_softmax
  have a0 := stretchA V
  obtain ⟨a_arg0, a_arg2⟩ := stretchA_keeps V
  generalize after opsA V = W1 at a0 a_arg0 a_arg2 ⊢
  -- the label column
  have b2 := stretchB0 W1
  obtain ⟨b_arg0, b_v0⟩ := stretchB0_keeps W1
  generalize after opsB0 W1 = W2 at b2 b_arg0 b_v0 ⊢
  -- take_along_axis
  have c3 := stretchBC W2 (V (Proc.devRef .tc main_arg1)) (V (Proc.devRef .tc main_arg2))
    ((show rd W2 t_v0 = rd W1 t_v0 from b_v0).trans a0)
    ((show rd W2 t_v2 = val_main_v2 (F := F) (W1 (Proc.devRef .tc main_arg2)) from b2).trans
      (congrArg (val_main_v2 (F := F)) a_arg2))
  have c_arg0 := stretchBC_keeps W2
  generalize after opsBC W2 = W3 at c3 c_arg0 ⊢
  -- the mean
  exact stretchD W3 _ _ _ c3 (c_arg0.trans (b_arg0.trans a_arg0))

set_option maxRecDepth 8192 in
set_option maxHeartbeats 2000000 in
/-- No operation of the line writes an argument. -/
theorem args_kept (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) := by
  refine ⟨?_, ?_, ?_⟩ <;> after_results_simp

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = Cert.ReferenceIdeal.ReadP.val_main_v8 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v8).trans (value (launchContents m c)),
      (h c main_arg0).trans (args_kept (launchContents m c)).1,
      (h c main_arg1).trans (args_kept (launchContents m c)).2.1,
      (h c main_arg2).trans (args_kept (launchContents m c)).2.2⟩)
    (run_seq scopedRefs_eq scopedSems_eq defs main (fun _ => ops) main_eq (fun _ => ops_sub) m ρ)

end Cert.ReferenceIdeal.RunP

end
-- ==== Proof.RowTerms.lean ====
/-
  The reference, read one row at a time. For step n and sample b the reference's summand is
  `p[n,b] · −(log_softmax(y_pred[n,b,:])[y_true[b]])`: the row's logits minus their maximum, minus the log of the sum of
  their exponentials, taken at the label (an index in range, so the gather reads it and the out-of-range fill is not
  selected), negated and weighted. Over real logits this is the row's weighted cross entropy `rowLoss`.
-/
import proofs.«428657_j34385508171853_3_alg».proof.Proof.RefRead
import proofs.«428657_j34385508171853_3_alg».proof.Proof.LogSumExp
import Idealize.ShloMosaic.Lib.ValueIdx
import Idealize.ShloMosaic.Lib.StableHlo.Predicate
import Idealize.ShloMosaic.PureOps.Reduce

noncomputable section

namespace Cert.ReferenceIdeal.RowTerms

open Cert.ReferenceIdeal Cert.ReferenceIdeal.Gen Idealize.ShloMosaic Idealize.ShloMosaic.ValueIdx
open Cert.ReferenceIdeal.ReadP Idealize.ShloMosaic.StableHlo.Predicate

/-- The gather's dimension numbers: a batched take along the class axis. -/
abbrev gd := gather_S16x256x32000_S16x256x1x1_S16x256x1_n_2_01_01_2_3_111

/-- The batched take along the class axis, read at (n, b, 0): the operand at (n, b, k) with k the start index at
    (n, b, 0, 0), read signed and clamped into [0, 31999]. Axes 0 and 1 are batching axes (their coordinate is the
    result's), axis 2 is the collapsed, indexed one. -/
theorem gather_at {α : Type} {w : Nat} (z : S16x256x32000.Idx → α) (idx : IVec S16x256x1x1 w) (n : Fin 16) (b : Fin 256) :
    Host.gather gather_S16x256x32000_S16x256x1x1_S16x256x1_n_2_01_01_2_3_111 z idx (ix3 n b (0 : Fin 1))
      = z (ix3 n b ⟨min (idx (ix4 n b 0 0)).toInt.toNat 31999, by omega⟩) := by
  unfold Host.gather
  congr 1
  funext a
  refine Fin.ext ?_
  show gd.start (ix3 n b 0) idx a + gd.batchCoord (ix3 n b 0) a + gd.offCoord (ix3 n b 0) a = _
  match a with
  | ⟨0, _⟩ =>
    have hb : (⟨0, by decide⟩ : Fin 3) ∈ gd.operandBatchingDims := by decide
    rw [gd.start_batching _ idx _ hb, gd.offCoord_eq_zero _ _ (fun h => ((gd.mem_sKept _).1 h).2 hb)]
    unfold GatherDims.batchCoord
    rw [dif_pos hb]
    unfold GatherDims.siCoord
    simp only [Nat.zero_add, Nat.add_zero]
    rfl
  | ⟨1, _⟩ =>
    have hb : (⟨1, by decide⟩ : Fin 3) ∈ gd.operandBatchingDims := by decide
    rw [gd.start_batching _ idx _ hb, gd.offCoord_eq_zero _ _ (fun h => ((gd.mem_sKept _).1 h).2 hb)]
    unfold GatherDims.batchCoord
    rw [dif_pos hb]
    unfold GatherDims.siCoord
    simp only [Nat.zero_add, Nat.add_zero]
    rfl
  | ⟨2, _⟩ =>
    have hb : (⟨2, by decide⟩ : Fin 3) ∉ gd.operandBatchingDims := by decide
    have hc : (⟨2, by decide⟩ : Fin 3) ∈ gd.collapsedSliceDims := by decide
    have hm : (⟨2, by decide⟩ : Fin 3) ∈ gd.startIndexMap := by decide
    rw [gd.batchCoord_eq_zero _ _ hb, gd.offCoord_eq_zero _ _ (fun h => ((gd.mem_sKept _).1 h).1 hc)]
    unfold GatherDims.start
    rw [dif_pos hm]
    have hsi : gd.siIdx (ix3 n b (0 : Fin 1)) ⟨List.idxOf (⟨2, by decide⟩ : Fin 3) gd.startIndexMap,
        List.idxOf_lt_length_iff.2 hm⟩ = ix4 n b 0 0 := by
      funext c; refine Fin.ext ?_
      match c with
      | ⟨0, _⟩ => rfl
      | ⟨1, _⟩ => rfl
      | ⟨2, _⟩ => rfl
      | ⟨3, _⟩ => rfl
    rw [hsi]
    rfl

/-- A fold of the one-bit conjunction over all-ones from one is one. -/
theorem fold_andi_one {ι : Type} [DecidableEq ι] (S : Finset ι) (f : ι → BitVec 1) (hf : ∀ i, f i = 1#1) :
    S.fold IntOp.andi 1#1 f = 1#1 := by
  induction S using Finset.induction_on with
  | empty => rfl
  | insert a s ha ih => rw [Finset.fold_insert ha, ih, hf]; rfl

/-- A class index is not negative as a signed word. -/
theorem slt_zero (w : BitVec 32) (hw : w.toNat < 32000) : IntOp.cmpi .slt w 0#32 = 0#1 := by
  apply eq_zero_of_ne_one
  intro h
  have h' := (slt_iff_toNat (a := w) (b := 0#32) (by omega) (by decide)).1 h
  exact absurd h' (by simp)

/-- A class index is at least zero as a signed word. -/
theorem sge_zero (w : BitVec 32) (hw : w.toNat < 32000) : IntOp.cmpi .sge w 0#32 = 1#1 :=
  (sge_iff_toNat (a := w) (b := 0#32) (by omega) (by decide)).2 (by simp)

/-- A class index is at most 31999 as a signed word. -/
theorem sle_max (w : BitVec 32) (hw : w.toNat < 32000) : IntOp.cmpi .sle w 31999#32 = 1#1 :=
  (sle_iff_toNat (a := w) (b := 31999#32) (by omega) (by decide)).2 (by
    have : (31999#32 : BitVec 32).toNat = 31999 := by decide
    omega)

section Labels
variable (y : (⟨S256, .i32⟩ : BufTy).Contents (Elt Ideal)) (hy : ∀ b : Fin 256, (y (ix1 b)).toNat < 32000)
include hy

/-- The labels broadcast over steps: at (n, b, 0) the label of sample b. -/
theorem v2_at (i : S16x256x1.Idx) (b : Fin 256) (hb : (i 1).val = b.val) : val_main_v2 (F := Ideal) y i = y (ix1 b) := by
  rw [val_main_v2_apply, val_main_v1_apply]
  exact congrArg y (funext fun a => by match a with | ⟨0, _⟩ => exact Fin.ext hb)

/-- A class index is not negative, so the wrap-around select keeps it. -/
theorem c1v4_at (i : S16x256x1.Idx) (b : Fin 256) (hb : (i 1).val = b.val) :
    val_main_call1_v4 (F := Ideal) y i = y (ix1 b) := by
  rw [val_main_call1_v4_apply, val_main_call1_v1_apply, val_main_call1_v0_apply, val_main_call1_c_apply, v2_at y hy i b hb,
    slt_zero _ (hy b), select_zero]

/-- The start indices at (n, b, 0, 0): the label of sample b. -/
theorem c1v5_at (i : S16x256x1x1.Idx) (b : Fin 256) (hb : (i 1).val = b.val) :
    val_main_call1_v5 (F := Ideal) y i = y (ix1 b) := by
  rw [val_main_call1_v5_apply]
  refine c1v4_at y hy _ b ?_
  have h0 : (i 0).val < 16 := (i 0).isLt
  have h1 : (i 1).val < 256 := (i 1).isLt
  have h2 : (i 2).val < 1 := (i 2).isLt
  have h3 : (i 3).val < 1 := (i 3).isLt
  show ((((i 0).val * 256 + (i 1).val) * 1 + (i 2).val) * 1 + (i 3).val) / 1 % 256 = b.val
  omega

/-- Every start index is in range. -/
theorem v11_at (i : S16x256x1x1.Idx) : val_main_call1_v11 (F := Ideal) y i = 1#1 := by
  rw [val_main_call1_v11_apply, val_main_call1_v7_apply, val_main_call1_v10_apply,
    c1v5_at y hy i ⟨(i 1).val, (i 1).isLt⟩ rfl,
    val_main_call1_v6_apply, val_main_call1_c_2_apply, val_main_call1_v9_apply, val_main_call1_v8_apply,
    val_main_call1_c_1_apply, sge_zero _ (hy _), sle_max _ (hy _)]
  rfl

/-- The in-range flag, a conjunction over a unit axis, is set everywhere. -/
theorem v12_at (j : S16x256x1.Idx) : val_main_call1_v12 (F := Ideal) y j = 1#1 := by
  unfold val_main_call1_v12
  rw [Host.reduce_eq_fold_single IntOp.andi _ _ reducesTo_S16x256x1x1_S16x256x1_d3 (by decide) h_S_ j,
    val_main_call1_c_3_apply]
  exact fold_andi_one _ _ (fun k => v11_at y hy _)

end Labels

/-- The bit pattern of minus infinity reads as the bottom element. -/
theorem ofBits_neg_inf : FloatOps.ofBits (F := Ideal) .f32 0xFF800000#32 = (⊥ : EReal) := by
  simp [Ideal.ofBits, Ideal.ieee]

/-- The row maximum (joined with minus infinity) of a tensor of reals is a real: a fold of max from the bottom element
    over the 32000 entries of a row. -/
theorem rowmax_real (x : (⟨S16x256x32000, .f32⟩ : BufTy).Contents (Elt Ideal))
    (hx : ∀ i : S16x256x32000.Idx, ∃ r : ℝ, x i = (r : EReal)) (j : S16x256.Idx) :
    ∃ r : ℝ, val_main_call0_v2 (F := Ideal) x j = (r : EReal) := by
  rw [val_main_call0_v2_apply, val_main_call0_v1_apply, val_main_call0_cst_0_apply]
  unfold val_main_call0_v0
  have key := Host.reduce_eq_fold_single (FloatOps.maximumf (F := Ideal) (φ := .f32)) x (val_main_call0_cst (F := Ideal))
    reducesTo_S16x256x32000_S16x256_d2 (by decide) h_S_ j
  rw [key, val_main_call0_cst_apply, ofBits_neg_inf]
  obtain ⟨r, hr⟩ := Cert.LogSumExp.foldmax_real (T := 32000) (by norm_num)
    (x ∘ (by decide : S16x256x32000.Reduces [2] S16x256).lift j) (fun u => hx _)
  refine ⟨r, ?_⟩
  rw [Ideal.maximumf_def, max_eq_right bot_le]
  exact hr

/-- The reference's weighted summand at (n, b) is the row's weighted cross entropy, for real weights and logits and
    labels that are class indices. -/
theorem weighted_term (p : (⟨S16x256, .f32⟩ : BufTy).Contents (Elt Ideal)) (x : (⟨S16x256x32000, .f32⟩ : BufTy).Contents (Elt Ideal))
    (y : (⟨S256, .i32⟩ : BufTy).Contents (Elt Ideal))
    (pr : Fin 16 → Fin 256 → ℝ) (X : Fin 16 → Fin 256 → ℕ → ℝ)
    (hp : ∀ (n : Fin 16) (b : Fin 256), p (ix2 n b) = ((pr n b : ℝ) : EReal))
    (hx : ∀ (n : Fin 16) (b : Fin 256) (v : Fin 32000), x (ix3 n b v) = ((X n b v.val : ℝ) : EReal))
    (hy : ∀ b : Fin 256, (y (ix1 b)).toNat < 32000) (n : Fin 16) (b : Fin 256) :
    Cert.ReferenceIdeal.ReadP.val_main_v6 (F := Ideal) p x y (ix2 n b)
      = ((Cert.LogSumExp.rowLoss (pr n b) (X n b) (y (ix1 b)).toNat : ℝ) : EReal) := by
  -- every logit is a real, so the row maximum M is one
  have hxall : ∀ i : S16x256x32000.Idx, ∃ r : ℝ, x i = (r : EReal) := fun i => by
    rw [eq_ix3 i]; exact ⟨_, hx _ _ _⟩
  have hM := rowmax_real x hxall (ix2 n b)
  -- the shifted logit s_v = x_v − M
  have h5 : ∀ v : Fin 32000, val_main_call0_v5 (F := Ideal) x (ix3 n b v)
      = x (ix3 n b v) - val_main_call0_v2 (F := Ideal) x (ix2 n b) := by
    intro v
    rw [val_main_call0_v5_apply, val_main_call0_v4_apply, val_main_call0_v3_apply, Ideal.subf_def]
    exact congrArg (fun k => x (ix3 n b v) - val_main_call0_v2 (F := Ideal) x k)
      (funext fun a => by match a with | ⟨0, _⟩ => rfl | ⟨1, _⟩ => rfl)
  -- the sum of exponentials S = 0 + Σ_v exp s_v
  have h7 : val_main_call0_v7 (F := Ideal) x (ix2 n b)
      = 0 + ∑ v : Fin 32000, Ideal.exp (x (ix3 n b v) - val_main_call0_v2 (F := Ideal) x (ix2 n b)) := by
    rw [val_main_call0_v7_apply, val_main_call0_cst_1_apply, Ideal.ofBits_def, Ideal.ofBits_zero_f32]
    refine congrArg (0 + ·) (Finset.sum_congr rfl fun k _ => ?_)
    rw [val_main_call0_v6_apply, Ideal.hostUnary_exp_def]
    have hk : idx_main_call0_v7 (ix2 n b) k = ix3 n b k :=
      funext fun a => by match a with | ⟨0, _⟩ => rfl | ⟨1, _⟩ => rfl | ⟨2, _⟩ => rfl
    rw [hk, h5]
  -- the log-probability logp_v = s_v − log S
  have h0 : ∀ v : Fin 32000, val_main_v0 (F := Ideal) x (ix3 n b v)
      = (x (ix3 n b v) - val_main_call0_v2 (F := Ideal) x (ix2 n b))
        - Ideal.log (0 + ∑ u : Fin 32000, Ideal.exp (x (ix3 n b u) - val_main_call0_v2 (F := Ideal) x (ix2 n b))) := by
    intro v
    rw [val_main_v0_apply, val_main_call0_v10_apply, val_main_call0_v9_apply, val_main_call0_v8_apply, Ideal.subf_def,
      Ideal.hostUnary_log_def, h5]
    have hk : idx_main_call0_v8 (idx_main_call0_v10 (ix3 n b v)) = ix2 n b :=
      funext fun a => by match a with | ⟨0, _⟩ => rfl | ⟨1, _⟩ => rfl
    rw [hk, h7]
  -- the summand: the weight times minus the gathered log-probability (the in-range flag is set)
  have hidx4 : idx_main_v4 (ix2 n b) = ix3 n b (0 : Fin 1) := funext fun a => Fin.ext (by
    have hn : n.val < 16 := n.isLt
    have hb : b.val < 256 := b.isLt
    match a with
    | ⟨0, _⟩ => show (n.val * 256 + b.val) / 256 = n.val; omega
    | ⟨1, _⟩ => show (n.val * 256 + b.val) / 1 % 256 = b.val; omega
    | ⟨2, _⟩ => rfl)
  rw [val_main_v6_apply, val_main_v5_apply, val_main_v4_apply, hidx4, val_main_v3_apply, v12_at y hy, select_one]
  unfold val_main_call1_v13
  rw [gather_at]
  -- the clamped start index is the label itself
  have hlab : (⟨min (val_main_call1_v5 (F := Ideal) y (ix4 n b 0 0)).toInt.toNat 31999, by omega⟩ : Fin 32000)
      = ⟨(y (ix1 b)).toNat, hy b⟩ := Fin.ext (by
    have h := hy b
    show min (val_main_call1_v5 (F := Ideal) y (ix4 n b 0 0)).toInt.toNat 31999 = (y (ix1 b)).toNat
    rw [c1v5_at y hy (ix4 n b 0 0) b rfl, toInt_eq_toNat_of_lt (by omega), Int.toNat_natCast]
    omega)
  rw [hlab, h0, hp, Ideal.mulf_def, Ideal.hostNegf_def, Ideal.negf_def]
  exact Cert.LogSumExp.two_pass_row (pr n b) (X n b) (y (ix1 b)).toNat (hy b) (fun v => x (ix3 n b v))
    (fun v => hx n b v) _ hM

end Cert.ReferenceIdeal.RowTerms

end
-- ==== Proof.Bridge.lean ====
/-
  The two programs' results are the same mean.

  The kernel program ends at `(0 + Σ_r O r) / 256` for its [4096, 1] output array `O`; the reference at
  `(0 + Σ_{n,b} L n b) / 256` for its [16, 256] array `L` of weighted per-row losses. Row `r = 256·n + b` of `O`
  and entry `(n, b)` of `L` are the same real number, so after re-indexing the rows by
  `Fin 4096 ≃ Fin 16 × Fin 256`, `r ↦ (r / 256, r % 256)`, the two sums are one sum, and the two quotients by
  the same constant are the same term. At the ideal values: a host sum is the initial value plus the sum over
  every index of its operand.
-/
import proofs.«428657_j34385508171853_3_alg».proof.Proof.RefRead
import proofs.«428657_j34385508171853_3_alg».proof.Proof.Total
import proofs.«428657_j34385508171853_3_alg».proof.Proof.Blocks
import proofs.«428657_j34385508171853_3_alg».proof.Proof.LogSumExp
import Idealize.ShloMosaic.Lib.ValueIdx
import Idealize.ShloMosaic.PureOps.Ideal.Laws

noncomputable section

namespace Cert.Bridge

open Idealize.ShloMosaic Idealize.ShloMosaic.ValueIdx
open Cert.KernelIdeal.Blocks (stepOf sampleOf)

/-- Rows of the flattened axis are pairs (step, sample): `r ↦ (r / 256, r % 256)`, inverse `(n, b) ↦ 256·n + b`. -/
def rowEquiv : Fin 4096 ≃ Fin 16 × Fin 256 where
  toFun r := (stepOf r, sampleOf r)
  invFun q := ⟨256 * q.1.val + q.2.val, by have := q.1.isLt; have := q.2.isLt; omega⟩
  left_inv r := by
    apply Fin.ext
    show 256 * (r.val / 256) + r.val % 256 = r.val
    omega
  right_inv q := by
    obtain ⟨n, b⟩ := q
    have := b.isLt
    apply Prod.ext
    · apply Fin.ext
      show (256 * n.val + b.val) / 256 = n.val
      omega
    · apply Fin.ext
      show (256 * n.val + b.val) % 256 = b.val
      omega

/-- Re-indexing the rows: a sum over the 4096 rows of a function of (step, sample) is the double sum. -/
theorem sum_rows (f : Fin 16 → Fin 256 → EReal) :
    ∑ r : Fin 4096, f (stepOf r) (sampleOf r) = ∑ n : Fin 16, ∑ b : Fin 256, f n b := by
  rw [← Fintype.sum_prod_type' f]
  exact Fintype.sum_equiv rowEquiv _ _ (fun r => rfl)

/-- The reference's result is the kernel program's: both are `(0 + Σ rowLoss) / 256` over the same 4096 row losses. -/
theorem mean_eq (pr : Fin 16 → Fin 256 → ℝ) (X : Fin 16 → Fin 256 → ℕ → ℝ) (lab : Fin 256 → ℕ)
    (O : Cert.KernelIdeal.S4096x1.Idx → EReal)
    (hO : ∀ r : Fin 4096, O (ix2 r (0 : Fin 1))
      = ((Cert.LogSumExp.rowLoss (pr (stepOf r) (sampleOf r)) (X (stepOf r) (sampleOf r)) (lab (sampleOf r)) : ℝ) : EReal))
    (p : (⟨Cert.ReferenceIdeal.S16x256, .f32⟩ : BufTy).Contents (Elt Ideal))
    (x : (⟨Cert.ReferenceIdeal.S16x256x32000, .f32⟩ : BufTy).Contents (Elt Ideal))
    (y : (⟨Cert.ReferenceIdeal.S256, .i32⟩ : BufTy).Contents (Elt Ideal))
    (hterm : ∀ (n : Fin 16) (b : Fin 256), Cert.ReferenceIdeal.ReadP.val_main_v6 (F := Ideal) p x y (ix2 n b)
      = ((Cert.LogSumExp.rowLoss (pr n b) (X n b) (lab b) : ℝ) : EReal)) :
    Cert.ReferenceIdeal.ReadP.val_main_v8 (F := Ideal) p x y = Cert.KernelIdeal.Total.mean (F := Ideal) O := by
  funext i
  -- the kernel program's sum: the initial value plus the sum over the rows
  have hK : Host.reduceAdd (F := Ideal) O (constant Cert.KernelIdeal.S_ .f32 0x00000000#32)
        Cert.KernelIdeal.Gen.reducesTo_S4096x1_S_d0_1 Cert.KernelIdeal.Gen.h_S_ i
      = Ideal.ofBits .f32 0x00000000#32 + ∑ r : Fin 4096, O (ix2 r (0 : Fin 1)) := by
    simp only [Host.reduceAdd, Ideal.hostReduceAdd_def]
    refine (Ideal.hostReduceAdd_total Cert.KernelIdeal.Gen.reducesTo_S4096x1_S_d0_1 (fun b => b.elim0) O _ i).trans ?_
    rw [sum_idx2]
    exact congrArg (fun s => _ + s) (Finset.sum_congr rfl (fun r _ => Fin.sum_univ_one _))
  -- the reference's sum: the initial value plus the double sum over (step, sample)
  have hR : Cert.ReferenceIdeal.ReadP.val_main_v7 (F := Ideal) p x y i
      = Ideal.ofBits .f32 0x00000000#32
        + ∑ n : Fin 16, ∑ b : Fin 256, Cert.ReferenceIdeal.ReadP.val_main_v6 (F := Ideal) p x y (ix2 n b) := by
    rw [Cert.ReferenceIdeal.ReadP.val_main_v7_apply, sum_idx2]
    rfl
  have hnum : Cert.ReferenceIdeal.ReadP.val_main_v7 (F := Ideal) p x y i
      = Host.reduceAdd (F := Ideal) O (constant Cert.KernelIdeal.S_ .f32 0x00000000#32)
        Cert.KernelIdeal.Gen.reducesTo_S4096x1_S_d0_1 Cert.KernelIdeal.Gen.h_S_ i := by
    rw [hK, hR, Finset.sum_congr rfl (fun r _ => hO r),
      Finset.sum_congr rfl (fun n _ => Finset.sum_congr rfl (fun b _ => hterm n b))]
    exact congrArg (fun s => _ + s) (sum_rows (fun n b => ((Cert.LogSumExp.rowLoss (pr n b) (X n b) (lab b) : ℝ) : EReal))).symm
  exact congrArg (fun s => FloatOps.hostDivf (F := Ideal) (φ := .f32) s (FloatOps.ofBits .f32 0x43800000#32)) hnum

end Cert.Bridge

end
-- ==== Proof.lean ====
/-
  The certificate of the weighted cross-entropy loss kernel against its jnp reference, over the extended reals, for finite
  weights and logits and labels that are class indices (0 ≤ y < 32000).

  The kernel streams each row's 32000 logits in ten tiles, keeping a running maximum, a running rescaled sum of
  exponentials and a running masked sum that picks the label's logit, and writes `p · ((max + log sum) − picked)` per row;
  the reference takes `log_softmax` in two passes and gathers the label's entry. Both are `p · (log ∑ e^{x_v} − x_y)` per
  row: the shift by the maximum — the true one in the reference, a running one seeded with a finite number in the
  kernel — cancels in `c + log ∑ e^{x_v − c}` (LogSumExp). The kernel's columns are followed point by point over the
  grid (Running), its output array is every row's value (Rows), and both programs end with the same mean over the
  4096 rows (Total, Bridge); the reference is read row by row from its operations (RowTerms) along its run (RefRun).
  The three frames are the generated frame runs; no idealization rewrite was applied, so `preserves` is trivial.
-/
import proofs.«428657_j34385508171853_3_alg».proof.Defs
import proofs.«428657_j34385508171853_3_alg».proof.Proof.Gen.Kernel
import proofs.«428657_j34385508171853_3_alg».proof.Proof.Gen.Kernel.Skeleton
import proofs.«428657_j34385508171853_3_alg».proof.Proof.Gen.Kernel.Launch
import proofs.«428657_j34385508171853_3_alg».proof.Proof.Gen.Kernel.Points
import proofs.«428657_j34385508171853_3_alg».proof.Proof.Gen.Kernel.Frame
import proofs.«428657_j34385508171853_3_alg».proof.Proof.Gen.KernelIdeal
import proofs.«428657_j34385508171853_3_alg».proof.Proof.Gen.KernelIdeal.Skeleton
import proofs.«428657_j34385508171853_3_alg».proof.Proof.Gen.KernelIdeal.Launch
import proofs.«428657_j34385508171853_3_alg».proof.Proof.Gen.KernelIdeal.Points
import proofs.«428657_j34385508171853_3_alg».proof.Proof.Gen.KernelIdeal.Frame
import proofs.«428657_j34385508171853_3_alg».proof.Proof.Gen.ReferenceIdeal
import proofs.«428657_j34385508171853_3_alg».proof.Proof.Gen.Pre_finite_inputs
import proofs.«428657_j34385508171853_3_alg».proof.Proof.Rows
import proofs.«428657_j34385508171853_3_alg».proof.Proof.Inputs
import proofs.«428657_j34385508171853_3_alg».proof.Proof.Total
import proofs.«428657_j34385508171853_3_alg».proof.Proof.RefRun
import proofs.«428657_j34385508171853_3_alg».proof.Proof.RowTerms
import proofs.«428657_j34385508171853_3_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RunP.run (F := Ideal) m ρ)

/-- Both programs end at the mean over the 4096 rows of `p · (log ∑ e^{x_v} − x_y)`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Total.mean (F := Ideal)
    (Cert.KernelIdeal.Rows.losses m c (Cert.KernelIdeal.Inputs.weightReal m c) (Cert.KernelIdeal.Inputs.logitReal m c)), ?_, ?_⟩
  · refine (θ_run Cert.KernelIdeal.defs _ _).mono (fun r h c => ?_) (Cert.KernelIdeal.Total.run (F := Ideal) m ρ)
    obtain ⟨h7, h0, h1, h2⟩ := h c
    refine ⟨h7.trans ?_, h0, h1, h2⟩
    rw [Cert.KernelIdeal.Rows.final (Cert.KernelIdeal.Inputs.real_inputs c hpre)]
  · refine (θ_run Cert.ReferenceIdeal.defs _ _).mono (fun r h c => ?_) (Cert.ReferenceIdeal.RunP.run (F := Ideal) m' ρ')
    obtain ⟨h8, h0, h1, h2⟩ := h c
    refine ⟨h8.trans ?_, h0, h1, h2⟩
    rw [(hagree c).1, (hagree c).2.1, (hagree c).2.2]
    have hin := Cert.KernelIdeal.Inputs.real_inputs c hpre
    exact Cert.Bridge.mean_eq (Cert.KernelIdeal.Inputs.weightReal m c) (Cert.KernelIdeal.Inputs.logitReal m c)
      (Cert.KernelIdeal.Running.labelOf m c) _ (fun r => rfl) _ _ _
      (fun n b => Cert.ReferenceIdeal.RowTerms.weighted_term _ _ _ _ _ hin.weights hin.logits hin.labels n b)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
